-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v35_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v35_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x500000 32) (main_arg2 : FVec F S50000x128 .f32) (main_arg3 : IVec S50000 32) (main_arg4 : FVec F S384x256 .f32) (main_arg5 : FVec F S256 .f32) (main_arg6 : FVec F S256x256 .f32) (main_arg7 : FVec F S256 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S1x1 : Shape := ⟨2, ![1, 1]⟩
abbrev S2000x384 : Shape := ⟨2, ![2000, 384]⟩
abbrev S2000x1 : Shape := ⟨2, ![2000, 1]⟩
abbrev S2000x256 : Shape := ⟨2, ![2000, 256]⟩
abbrev S1x256 : Shape := ⟨2, ![1, 256]⟩
abbrev S2000x128 : Shape := ⟨2, ![2000, 128]⟩
abbrev S1x128 : Shape := ⟨2, ![1, 128]⟩

abbrev nBuf : Space → Nat
  | .hbm => 62
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S50000x128, .f32⟩
  | .hbm, ⟨3, _⟩ => ⟨S50000, .i32⟩
  | .hbm, ⟨4, _⟩ => ⟨S384x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x500000, .i32⟩
  | .hbm, ⟨17, _⟩ => ⟨S500000, .i32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S500000x384, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000, .i32⟩
  | .hbm, ⟨57, _⟩ => ⟨S500000, .f32⟩
  | .hbm, ⟨58, _⟩ => ⟨S500000x1, .f32⟩
  | .hbm, ⟨59, _⟩ => ⟨S500000x1, .f32⟩
  | .hbm, ⟨60, _⟩ => ⟨S1x1, .f32⟩
  | .hbm, ⟨61, _⟩ => ⟨S_, .f32⟩
  | .local _ .vmem, ⟨0, _⟩ => ⟨S2000x384, .f32⟩
  | .local _ .vmem, ⟨1, _⟩ => ⟨S2000x384, .f32⟩
  | .local _ .vmem, ⟨2, _⟩ => ⟨S2000x1, .f32⟩
  | .local _ .vmem, ⟨3, _⟩ => ⟨S2000x1, .f32⟩
  | .local _ .vmem, ⟨4, _⟩ => ⟨S384x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S256x128, .f32⟩
  | .local _ .vmem, ⟨13, _⟩ => ⟨S128, .f32⟩
  | .local _ .vmem, ⟨14, _⟩ => ⟨S128x1, .f32⟩
  | .local _ .vmem, ⟨15, _⟩ => ⟨S1, .f32⟩
  | .local _ .vmem, ⟨16, _⟩ => ⟨S2000x1, .f32⟩
  | .local _ .vmem, ⟨17, _⟩ => ⟨S2000x1, .f32⟩
  | .local _ .vmem, ⟨18, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35_0 : Ref sig .tc := ⟨.hbm, 59, rfl⟩
abbrev main_v35_1 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  inb_S1x1_S1x1_0_0 : ∀ a, (![0, 0] : Fin 2 → Nat) a + S1x1.size a ≤ S1x1.size a
  h_S1x1 : 0 < S1x1.numel
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  natLt_1_32 : 1 < 32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  reduces_S2000x1_S1 : S2000x1.Reduces [0] S1
  shapeCasts_S1x1_S1x1 : S1x1.ShapeCasts S1x1
  shapeCasts_S1x1_S_ : S1x1.ShapeCasts S_
  gather_S50000x128_S500000x1_S500000x128_1_0_n_n_0_1_1128_wf : GatherDims.WF S50000x128 S500000x1 S500000x128 [1] [0] [] [0] [] 1 ![1, 128]
  gather_S50000_S500000x1_S500000_n_0_n_n_0_1_1_wf : GatherDims.WF S50000 S500000x1 S500000 [] [0] [] [0] [] 1 ![1]
  dot_S2000x384_S384x256_S2000x256_1_0_0_1_n_n_wf : DotDims.WF S2000x384 S384x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S500000x384.size a
  hwx0_0 : ∀ i : grid0.Coords, EltTy.bits .f32 = 32 ∨ (Rect.block (s := S500000x384) S2000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .f32 = 32 ∨ (Rect.block (s := S500000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x256.size a ≤ S384x256.size a
  hwx0_2 : ∀ i : grid0.Coords, EltTy.bits .f32 = 32 ∨ (Rect.block (s := S384x256) S384x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .f32 = 32 ∨ (Rect.block (s := S128x1) S128x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x1.size a ≤ S500000x1.size a
  hwx0_14 : ∀ i : grid0.Coords, EltTy.bits .f32 = 32 ∨ (Rect.block (s := S500000x1) S2000x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v25) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S384x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35_0) S2000x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v35_1) S1x1.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S384x256 : Shape := ⟨2, ![384, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S50000x128, .f32⟩
  | .hbm, ⟨3, _⟩ => ⟨S50000, .i32⟩
  | .hbm, ⟨4, _⟩ => ⟨S384x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x500000, .i32⟩
  | .hbm, ⟨17, _⟩ => ⟨S500000, .i32⟩
  | .hbm, ⟨18, _⟩ => ⟨S1x500000, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000x128, .f32⟩
  | .hbm, ⟨47, _⟩ => ⟨S500000x384, .f32⟩
  | .hbm, ⟨48, _⟩ => ⟨S500000x256, .f32⟩
  | .hbm, ⟨49, _⟩ => ⟨S1x256, .f32⟩
  | .hbm, ⟨50, _⟩ => ⟨S500000x256, .f32⟩
  | .hbm, ⟨51, _⟩ => ⟨S500000x256, .f32⟩
  | .hbm, ⟨52, _⟩ => ⟨S_, .f32⟩
  | .hbm, ⟨53, _⟩ => ⟨S500000x256, .f32⟩
  | .hbm, ⟨54, _⟩ => ⟨S500000x256, .f32⟩
  | .hbm, ⟨55, _⟩ => ⟨S500000x256, .f32⟩
  | .hbm, ⟨56, _⟩ => ⟨S1x256, .f32⟩
  | .hbm, ⟨57, _⟩ => ⟨S500000x256, .f32⟩
  | .hbm, ⟨58, _⟩ => ⟨S500000x256, .f32⟩
  | .hbm, ⟨59, _⟩ => ⟨S500000x128, .f32⟩
  | .hbm, ⟨60, _⟩ => ⟨S1x128, .f32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S500000x128, .f32⟩
  | .hbm, ⟨65, _⟩ => ⟨S500000x128, .f32⟩
  | .hbm, ⟨66, _⟩ => ⟨S500000x1, .f32⟩
  | .hbm, ⟨67, _⟩ => ⟨S1x1, .f32⟩
  | .hbm, ⟨68, _⟩ => ⟨S500000x1, .f32⟩
  | .hbm, ⟨69, _⟩ => ⟨S500000x1, .f32⟩
  | .hbm, ⟨70, _⟩ => ⟨S500000x1, .f32⟩
  | .hbm, ⟨71, _⟩ => ⟨S500000x1, .f32⟩
  | .hbm, ⟨72, _⟩ => ⟨S_, .f32⟩
  | .hbm, ⟨73, _⟩ => ⟨S500000x1, .f32⟩
  | .hbm, ⟨74, _⟩ => ⟨S500000x1, .f32⟩
  | .hbm, ⟨75, _⟩ => ⟨S_, .f32⟩
  | .hbm, ⟨76, _⟩ => ⟨S500000x1, .f32⟩
  | .hbm, ⟨77, _⟩ => ⟨S500000x1, .f32⟩
  | .hbm, ⟨78, _⟩ => ⟨S_, .f32⟩
  | .hbm, ⟨79, _⟩ => ⟨S500000x1, .f32⟩
  | .hbm, ⟨80, _⟩ => ⟨S500000x1, .i1⟩
  | .hbm, ⟨81, _⟩ => ⟨S500000x1, .f32⟩
  | .hbm, ⟨82, _⟩ => ⟨S500000x128, .f32⟩
  | .hbm, ⟨83, _⟩ => ⟨S1x128, .f32⟩
  | .hbm, ⟨84, _⟩ => ⟨S500000x128, .f32⟩
  | .hbm, ⟨85, _⟩ => ⟨S500000x128, .f32⟩
  | .hbm, ⟨86, _⟩ => ⟨S_, .f32⟩
  | .hbm, ⟨87, _⟩ => ⟨S500000x128, .f32⟩
  | .hbm, ⟨88, _⟩ => ⟨S500000x128, .f32⟩
  | .hbm, ⟨89, _⟩ => ⟨S500000x1, .f32⟩
  | .hbm, ⟨90, _⟩ => ⟨S1x1, .f32⟩
  | .hbm, ⟨91, _⟩ => ⟨S500000x1, .f32⟩
  | .hbm, ⟨92, _⟩ => ⟨S500000x1, .f32⟩
  | .hbm, ⟨93, _⟩ => ⟨S_, .i32⟩
  | .hbm, ⟨94, _⟩ => ⟨S500000, .i32⟩
  | .hbm, ⟨95, _⟩ => ⟨S500000, .i1⟩
  | .hbm, ⟨96, _⟩ => ⟨S_, .i32⟩
  | .hbm, ⟨97, _⟩ => ⟨S500000, .i32⟩
  | .hbm, ⟨98, _⟩ => ⟨S500000, .i32⟩
  | .hbm, ⟨99, _⟩ => ⟨S500000, .i32⟩
  | .hbm, ⟨100, _⟩ => ⟨S500000x1, .i32⟩
  | .hbm, ⟨101, _⟩ => ⟨S500000, .i32⟩
  | .hbm, ⟨102, _⟩ => ⟨S500000, .f32⟩
  | .hbm, ⟨103, _⟩ => ⟨S500000x1, .f32⟩
  | .hbm, ⟨104, _⟩ => ⟨S_, .f32⟩
  | .hbm, ⟨105, _⟩ => ⟨S500000x1, .f32⟩
  | .hbm, ⟨106, _⟩ => ⟨S500000x1, .f32⟩
  | .hbm, ⟨107, _⟩ => ⟨S500000x1, .f32⟩
  | .hbm, ⟨108, _⟩ => ⟨S500000x1, .f32⟩
  | .hbm, ⟨109, _⟩ => ⟨S500000x1, .f32⟩
  | .hbm, ⟨110, _⟩ => ⟨S500000x1, .f32⟩
  | .hbm, ⟨111, _⟩ => ⟨S500000x1, .f32⟩
  | .hbm, ⟨112, _⟩ => ⟨S500000x1, .f32⟩
  | .hbm, ⟨113, _⟩ => ⟨S500000x1, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call0_cst : Ref sig .tc := ⟨.hbm, 52, rfl⟩
abbrev main_call0_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_7 : Ref sig .tc := ⟨.hbm, 93, rfl⟩
abbrev main_v62 : Ref sig .tc := ⟨.hbm, 94, rfl⟩
abbrev main_v63 : Ref sig .tc := ⟨.hbm, 95, rfl⟩
abbrev main_c_8 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_cst_11 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  reducesTo_S500000x1_S_d0_1 : S500000x1.ReducesTo [0, 1] S_
  h_S_ : 0 < S_.numel
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  gather_S50000_S500000x1_S500000_n_0_n_n_0_1_1_wf : GatherDims.WF S50000 S500000x1 S500000 [] [0] [] [0] [] 1 ![1]

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf

class Facts : Prop extends Facts₀ where

variable [Facts]
-- ==== Proof.KI.Entry.lean ====
/-
  Where the kernel region starts from, for the idealized kernel's program.

  @main is forty-three host lines (the two index rows cut out of `edge_index`, negative indices wrapped by
  the table's length, three row gathers joined side by side into the 500000 × 384 state, the gathered labels
  converted to floats and stood up as a column), then the one kernel region over 250 grid points, then one
  host line (the 1 × 1 accumulated loss reshaped to a scalar).

  This module fixes what every later module is stated over:
  * `V`: every buffer's contents when the region is entered (the launch contents pushed through the
    forty-three lines), and that none of those lines, nor the line after the region, writes an argument;
  * that @main is "lines, region, lines" in the library's sense (`hmain`);
  * `iblk`: the block of a window's array that grid point `t` is handed (rows 2000·t … 2000·t + 1999 of the
    state and of the label column; the whole array for each of the twelve weight and bias windows, which are
    staged once);
  * the two branch conditions of the body, decided over the grid: the reset of the loss holds at point 0
    only, the final division at point 249 only;
  * the staging memrefs the body is called with at point `t`.
-/
import proofs.«130535_j58952721105293_1_alg».proof.Proof.Gen.KernelIdeal.Launch
import proofs.«130535_j58952721105293_1_alg».proof.Proof.Gen.KernelIdeal.Skeleton
import proofs.«130535_j58952721105293_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the host
    lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it: it reduces to the
    region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only unscoped TensorCore references, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array the region stages (it writes the scalar result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The arguments are written by no host line -/

/-- Each of the forty-three lines before the region writes its own result buffer, which is no argument. -/
local macro "not_written_before" : tactic => `(tactic| (
  refine List.forall_iff_forall_mem.mp ?_
  simp only [hostOps0, List.flatten_cons, List.flatten_nil, List.append_nil, List.cons_append, List.nil_append, List.Forall,
    StableHlo.nullary_writes, StableHlo.unary_writes, StableHlo.binary_writes, StableHlo.ternary_writes, StableHlo.reshape_writes,
    StableHlo.nary_writes, Finset.mem_singleton]
  repeat' apply And.intro
  all_goals exact StableHlo.devRef_ne_of_ne (by decide)))
/-- So does the line after it. -/
local macro "not_written_after" : tactic => `(tactic| (
  refine List.forall_iff_forall_mem.mp ?_
  simp only [hostOps1, List.flatten_cons, List.flatten_nil, List.append_nil, List.cons_append, List.nil_append, List.Forall,
    StableHlo.reshape_writes, Finset.mem_singleton]
  repeat' apply And.intro
  all_goals exact StableHlo.devRef_ne_of_ne (by decide)))

/-- The sixteen arguments of @main, in order. -/
abbrev argRef : Fin 16 → Ref sig .tc :=
  ![main_arg0, main_arg1, main_arg2, main_arg3, main_arg4, main_arg5, main_arg6, main_arg7,
    main_arg8, main_arg9, main_arg10, main_arg11, main_arg12, main_arg13, main_arg14, main_arg15]

/-- The region finds every argument as launched. -/
theorem V_arg (c : Dev nD) (k : Fin 16) : V m c (argRef k) = m ((c : Thread nD τ).loc (argRef k)) := by
  refine StableHlo.after_of_forall_not_mem (b := Proc.devRef .tc (argRef k)) _ _ ?_
  fin_cases k <;> not_written_before

/-- No window of the region stages one of the first four arguments (the node features, the edge list, the
    guidance features, the labels: they are read by the gathers only); the other twelve are the arrays of
    windows 2 to 13. -/
theorem argRef_ne_arr : ∀ (k : Fin 16) (w : Fin 16), w.val ≠ k.val - 2 ∨ k.val < 4 → Pipeline.arrRef spec0 w ≠ argRef k := by
  decide

/-- @main ends with every argument as launched: the line after the region does not write it, and the arrays
    the region writes back (the two results) are not arguments. -/
theorem W_arg (dats : (p : Fin 1) → (c : Dev nD) → Dat τ (Elt F) Unit ℕ (UR sig nD τ) ℕ (cfgs p) c) (c : Dev nD) (k : Fin 16)
    (hk : k.val < 4) :
    Pipeline.afterTail₀ cfgs dats 0 (V0 m) [hostOps1] c (argRef k) = m ((c : Thread nD τ).loc (argRef k)) := by
  unfold Pipeline.afterTail₀
  rw [StableHlo.after_of_forall_not_mem (b := Proc.devRef .tc (argRef k)) _ _ (by fin_cases k <;> not_written_after),
    Pipeline.withArrays_of_ne _ c (V0 m c) _ (argRef k) (fun w => argRef_ne_arr k w (Or.inr hk))]
  exact V_arg m c k

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The loss is reset when the grid coordinate is 0 (the body's scalar chain, substituted). -/
abbrev isFirst (i : grid0.Coords) : Prop := (Scalar.cmpi .ne (Scalar.extui (Scalar.cmpi .eq (BitVec.ofNat 32 (i 0).val) 0#32)) 0#32) = 1#1
/-- The accumulated loss is divided by the number of edges when the grid coordinate is 249. -/
abbrev isLast (i : grid0.Coords) : Prop := (Scalar.cmpi .ne (Scalar.extui (Scalar.cmpi .eq (BitVec.ofNat 32 (i 0).val) 249#32)) 0#32) = 1#1

/-- Decided over the 250 points. -/
theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 249 :=
  (by decide +kernel : ∀ t : Fin grid0.N, isLast (grid0.coords t) ↔ t.val = 249)

/-! ## What the body is called with -/

/-- The sixteen staging buffers the body is called with, one per window and each a whole buffer: the block of
    edge states and of labels, the twelve weights and biases of the three small networks, then the two results
    (the block of actions, and the 1 × 1 running loss). -/
structure Bufs where
  state : Memref sig .tc .vmem S2000x384 .f32
  hstate : state.IsWhole
  label : Memref sig .tc .vmem S2000x1 .f32
  hlabel : label.IsWhole
  w1 : Memref sig .tc .vmem S384x256 .f32
  hw1 : w1.IsWhole
  b1 : Memref sig .tc .vmem S256 .f32
  hb1 : b1.IsWhole
  w2 : Memref sig .tc .vmem S256x256 .f32
  hw2 : w2.IsWhole
  b2 : Memref sig .tc .vmem S256 .f32
  hb2 : b2.IsWhole
  pw1 : Memref sig .tc .vmem S256x128 .f32
  hpw1 : pw1.IsWhole
  pb1 : Memref sig .tc .vmem S128 .f32
  hpb1 : pb1.IsWhole
  pw2 : Memref sig .tc .vmem S128x1 .f32
  hpw2 : pw2.IsWhole
  pb2 : Memref sig .tc .vmem S1 .f32
  hpb2 : pb2.IsWhole
  vw1 : Memref sig .tc .vmem S256x128 .f32
  hvw1 : vw1.IsWhole
  vb1 : Memref sig .tc .vmem S128 .f32
  hvb1 : vb1.IsWhole
  vw2 : Memref sig .tc .vmem S128x1 .f32
  hvw2 : vw2.IsWhole
  vb2 : Memref sig .tc .vmem S1 .f32
  hvb2 : vb2.IsWhole
  act : Memref sig .tc .vmem S2000x1 .f32
  hact : act.IsWhole
  loss : Memref sig .tc .vmem S1x1 .f32
  hloss : loss.IsWhole

/-- What the fourteen input buffers hold. -/
structure Ins (F : FTy → Type) [FloatOps F] where
  state : Vec F S2000x384 .f32
  label : Vec F S2000x1 .f32
  w1 : Vec F S384x256 .f32
  b1 : Vec F S256 .f32
  w2 : Vec F S256x256 .f32
  b2 : Vec F S256 .f32
  pw1 : Vec F S256x128 .f32
  pb1 : Vec F S128 .f32
  pw2 : Vec F S128x1 .f32
  pb2 : Vec F S1 .f32
  vw1 : Vec F S256x128 .f32
  vb1 : Vec F S128 .f32
  vw2 : Vec F S128x1 .f32
  vb2 : Vec F S1 .f32

/-- Core `c` owns the fourteen input buffers whole, each at its contents. -/
def insAt (c : Dev nD) (B : Bufs) (X : Ins F) : sProp 𝕄 :=
  iprop(owns (c : Thread nD τ) B.state fullShare X.state ∗ owns (c : Thread nD τ) B.label fullShare X.label
    ∗ owns (c : Thread nD τ) B.w1 fullShare X.w1 ∗ owns (c : Thread nD τ) B.b1 fullShare X.b1
    ∗ owns (c : Thread nD τ) B.w2 fullShare X.w2 ∗ owns (c : Thread nD τ) B.b2 fullShare X.b2
    ∗ owns (c : Thread nD τ) B.pw1 fullShare X.pw1 ∗ owns (c : Thread nD τ) B.pb1 fullShare X.pb1
    ∗ owns (c : Thread nD τ) B.pw2 fullShare X.pw2 ∗ owns (c : Thread nD τ) B.pb2 fullShare X.pb2
    ∗ owns (c : Thread nD τ) B.vw1 fullShare X.vw1 ∗ owns (c : Thread nD τ) B.vb1 fullShare X.vb1
    ∗ owns (c : Thread nD τ) B.vw2 fullShare X.vw2 ∗ owns (c : Thread nD τ) B.vb2 fullShare X.vb2)

/-- The staging buffers at grid point `t`, as the pipeline passes them: the two moving inputs and the block of
    actions alternate between two buffers, everything else has one. -/
@[reducible] def bufsAt (t : Fin cfg0.N) : Bufs where
  state := win0_0.stage (cfg0.slots t 0)
  hstate := hstage0_0 ((cfg0.slots t 0).cast nbuf0_0)
  label := win0_1.stage (cfg0.slots t 1)
  hlabel := hstage0_1 ((cfg0.slots t 1).cast nbuf0_1)
  w1 := win0_2.stage (cfg0.slots t 2)
  hw1 := hstage0_2 ((cfg0.slots t 2).cast nbuf0_2)
  b1 := win0_3.stage (cfg0.slots t 3)
  hb1 := hstage0_3 ((cfg0.slots t 3).cast nbuf0_3)
  w2 := win0_4.stage (cfg0.slots t 4)
  hw2 := hstage0_4 ((cfg0.slots t 4).cast nbuf0_4)
  b2 := win0_5.stage (cfg0.slots t 5)
  hb2 := hstage0_5 ((cfg0.slots t 5).cast nbuf0_5)
  pw1 := win0_6.stage (cfg0.slots t 6)
  hpw1 := hstage0_6 ((cfg0.slots t 6).cast nbuf0_6)
  pb1 := win0_7.stage (cfg0.slots t 7)
  hpb1 := hstage0_7 ((cfg0.slots t 7).cast nbuf0_7)
  pw2 := win0_8.stage (cfg0.slots t 8)
  hpw2 := hstage0_8 ((cfg0.slots t 8).cast nbuf0_8)
  pb2 := win0_9.stage (cfg0.slots t 9)
  hpb2 := hstage0_9 ((cfg0.slots t 9).cast nbuf0_9)
  vw1 := win0_10.stage (cfg0.slots t 10)
  hvw1 := hstage0_10 ((cfg0.slots t 10).cast nbuf0_10)
  vb1 := win0_11.stage (cfg0.slots t 11)
  hvb1 := hstage0_11 ((cfg0.slots t 11).cast nbuf0_11)
  vw2 := win0_12.stage (cfg0.slots t 12)
  hvw2 := hstage0_12 ((cfg0.slots t 12).cast nbuf0_12)
  vb2 := win0_13.stage (cfg0.slots t 13)
  hvb2 := hstage0_13 ((cfg0.slots t 13).cast nbuf0_13)
  act := win0_14.stage (cfg0.slots t 14)
  hact := hstage0_14 ((cfg0.slots t 14).cast nbuf0_14)
  loss := win0_15.stage (cfg0.slots t 15)
  hloss := hstage0_15 ((cfg0.slots t 15).cast nbuf0_15)

/-- The input blocks grid point `t` is handed, read off the arrays as the region finds them. -/
def blocksAt (c : Dev nD) (t : Fin cfg0.N) : Ins F where
  state := iblk m c 0 t
  label := iblk m c 1 t
  w1 := iblk m c 2 t
  b1 := iblk m c 3 t
  w2 := iblk m c 4 t
  b2 := iblk m c 5 t
  pw1 := iblk m c 6 t
  pb1 := iblk m c 7 t
  pw2 := iblk m c 8 t
  pb2 := iblk m c 9 t
  vw1 := iblk m c 10 t
  vb1 := iblk m c 11 t
  vw2 := iblk m c 12 t
  vb2 := iblk m c 13 t

/-- One staging buffer of each result window, through which its contents are stated (which of a window's
    buffers is chosen does not matter: a view's read of its writes depends on the pieces only). -/
abbrev actView : View sig .tc .vmem S2000x1 .f32 := (Memref.whole cc0_stg14_0 : Memref sig .tc .vmem S2000x1 .f32).view
abbrev lossView : View sig .tc .vmem S1x1 .f32 := (Memref.whole cc0_stg15_0 : Memref sig .tc .vmem S1x1 .f32).view

end Cert.KernelIdeal.Region

end
-- ==== Proof.KI.RunFirst.lean ====
/-
  The body at grid point 0.

  The reset branch is taken and the final division is not. Run on whole staging buffers — the fourteen inputs
  at their contents, the two result buffers at anything — the body ends with the inputs as they were and each
  result buffer written through a list of pieces: the block of actions in one store; the 1 × 1 loss by the
  reset to zero and then the store of "what was just read back, plus this block's sum". The pieces are not
  transcribed here: they are what the symbolic run of the body finds, and the statement carries them.
-/
import proofs.«130535_j58952721105293_1_alg».proof.Proof.KI.Entry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run walks the whole body (five matrix products, two branches): past the default budget
set_option maxHeartbeats 8000000 in
/-- The pieces the body's stores leave in the two result buffers at the first point (last store first), with
    the proof that the body runs to its continuation holding exactly that. -/
noncomputable def runFirst (c : Dev nD) (i : grid0.Coords) (B : Bufs) (hf : isFirst i) (hl : ¬isLast i) (X : Ins F) :
    Σ' (LA : List (View.Piece (Elt F) S2000x1 .f32)), { LL : List (View.Piece (Elt F) S1x1 .f32) //
      ∀ (E : Set ℕ) (K : PUnit → sProp 𝕄),
        iprop(insAt c B X ∗ (∃ d, owns (c : Thread nD τ) B.act fullShare d) ∗ (∃ d, owns (c : Thread nD τ) B.loss fullShare d)
            ∗ (iprop(insAt c B X ∗ (∃ f, B.act.view.loc (c : Thread nD τ) ↦[B.act.view.set]{fullShare} B.act.view.writes (Elt F) f LA)
                  ∗ (∃ f, B.loss.view.loc (c : Thread nD τ) ↦[B.loss.view.set]{fullShare} B.loss.view.writes (Elt F) f LL)) -∗ K ⟨⟩))
          ⊢ wp frame (wpE (defs₀ (F := F)) Variants.none c none) E (cc0__rl_kernel i B.state B.hstate B.label B.hlabel B.w1 B.hw1 B.b1 B.hb1 B.w2 B.hw2 B.b2 B.hb2 B.pw1 B.hpw1 B.pb1 B.hpb1 B.pw2 B.hpw2 B.pb2 B.hpb2 B.vw1 B.hvw1 B.vb1 B.hvb1 B.vw2 B.hvw2 B.vb2 B.hvb2 B.act B.hact B.loss B.hloss) K } := by
  refine ⟨?_, ?_, fun E K => ?run⟩
  case run =>
    sl_unfold [cc0__rl_kernel]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%dA, %fA, -, HA⟩, ⟨%dL, %fL, -, HL⟩, Hk⟩
    obtain rfl := B.hstate.eq_unread hf0; obtain rfl := B.hlabel.eq_unread hf1; obtain rfl := B.hw1.eq_unread hf2
    obtain rfl := B.hb1.eq_unread hf3; obtain rfl := B.hw2.eq_unread hf4; obtain rfl := B.hb2.eq_unread hf5
    obtain rfl := B.hpw1.eq_unread hf6; obtain rfl := B.hpb1.eq_unread hf7; obtain rfl := B.hpw2.eq_unread hf8
    obtain rfl := B.hpb2.eq_unread hf9; obtain rfl := B.hvw1.eq_unread hf10; obtain rfl := B.hvb1.eq_unread hf11
    obtain rfl := B.hvw2.eq_unread hf12; obtain rfl := B.hvb2.eq_unread hf13
    sl_exec (disch := first | exact hf | exact hl)
    sl_step
    iapply Hk
    isplitl [H0 H1 H2 H3 H4 H5 H6 H7 H8 H9 H10 H11 H12 H13]
    · isplitl [H0]; · iexists _; isplitr; · ipureintro; exact B.hstate.read_unread _
                      iexact H0
      isplitl [H1]; · iexists _; isplitr; · ipureintro; exact B.hlabel.read_unread _
                      iexact H1
      isplitl [H2]; · iexists _; isplitr; · ipureintro; exact B.hw1.read_unread _
                      iexact H2
      isplitl [H3]; · iexists _; isplitr; · ipureintro; exact B.hb1.read_unread _
                      iexact H3
      isplitl [H4]; · iexists _; isplitr; · ipureintro; exact B.hw2.read_unread _
                      iexact H4
      isplitl [H5]; · iexists _; isplitr; · ipureintro; exact B.hb2.read_unread _
                      iexact H5
      isplitl [H6]; · iexists _; isplitr; · ipureintro; exact B.hpw1.read_unread _
                      iexact H6
      isplitl [H7]; · iexists _; isplitr; · ipureintro; exact B.hpb1.read_unread _
                      iexact H7
      isplitl [H8]; · iexists _; isplitr; · ipureintro; exact B.hpw2.read_unread _
                      iexact H8
      isplitl [H9]; · iexists _; isplitr; · ipureintro; exact B.hpb2.read_unread _
                      iexact H9
      isplitl [H10]; · iexists _; isplitr; · ipureintro; exact B.hvw1.read_unread _
                       iexact H10
      isplitl [H11]; · iexists _; isplitr; · ipureintro; exact B.hvb1.read_unread _
                       iexact H11
      isplitl [H12]; · iexists _; isplitr; · ipureintro; exact B.hvw2.read_unread _
                       iexact H12
      iexists _; isplitr; · ipureintro; exact B.hvb2.read_unread _
      iexact H13
    isplitl [HA]
    · iexists _; iexact HA
    iexists _; iexact HL

end Cert.KernelIdeal.Region

end
-- ==== Proof.KI.RunMid.lean ====
/-
  The body at a grid point that is neither the first nor the last.

  Neither branch is taken. The 1 × 1 loss buffer comes in holding what the point before left (`acc`); the
  body stores "what it read there, plus this block's sum" into it, and the block of actions in one store.
-/
import proofs.«130535_j58952721105293_1_alg».proof.Proof.KI.Entry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run walks the whole body (five matrix products, two branches): past the default budget
set_option maxHeartbeats 8000000 in
/-- The pieces the body's stores leave in the two result buffers at a middle point, over the running loss
    `acc` it finds, with the proof that the body runs to its continuation holding exactly that. -/
noncomputable def runMid (c : Dev nD) (i : grid0.Coords) (B : Bufs) (hf : ¬isFirst i) (hl : ¬isLast i) (X : Ins F) (acc : Vec F S1x1 .f32) :
    Σ' (LA : List (View.Piece (Elt F) S2000x1 .f32)), { LL : List (View.Piece (Elt F) S1x1 .f32) //
      ∀ (E : Set ℕ) (K : PUnit → sProp 𝕄),
        iprop(insAt c B X ∗ (∃ d, owns (c : Thread nD τ) B.act fullShare d) ∗ owns (c : Thread nD τ) B.loss fullShare acc
            ∗ (iprop(insAt c B X ∗ (∃ f, B.act.view.loc (c : Thread nD τ) ↦[B.act.view.set]{fullShare} B.act.view.writes (Elt F) f LA)
                  ∗ (∃ f, B.loss.view.loc (c : Thread nD τ) ↦[B.loss.view.set]{fullShare} B.loss.view.writes (Elt F) f LL)) -∗ K ⟨⟩))
          ⊢ wp frame (wpE (defs₀ (F := F)) Variants.none c none) E (cc0__rl_kernel i B.state B.hstate B.label B.hlabel B.w1 B.hw1 B.b1 B.hb1 B.w2 B.hw2 B.b2 B.hb2 B.pw1 B.hpw1 B.pb1 B.hpb1 B.pw2 B.hpw2 B.pb2 B.hpb2 B.vw1 B.hvw1 B.vb1 B.hvb1 B.vw2 B.hvw2 B.vb2 B.hvb2 B.act B.hact B.loss B.hloss) K } := by
  refine ⟨?_, ?_, fun E K => ?run⟩
  case run =>
    sl_unfold [cc0__rl_kernel]
    unfold insAt owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%dA, %fA, -, HA⟩, ⟨%fL, %hfL, HL⟩, Hk⟩
    obtain rfl := B.hstate.eq_unread hf0; obtain rfl := B.hlabel.eq_unread hf1; obtain rfl := B.hw1.eq_unread hf2
    obtain rfl := B.hb1.eq_unread hf3; obtain rfl := B.hw2.eq_unread hf4; obtain rfl := B.hb2.eq_unread hf5
    obtain rfl := B.hpw1.eq_unread hf6; obtain rfl := B.hpb1.eq_unread hf7; obtain rfl := B.hpw2.eq_unread hf8
    obtain rfl := B.hpb2.eq_unread hf9; obtain rfl := B.hvw1.eq_unread hf10; obtain rfl := B.hvb1.eq_unread hf11
    obtain rfl := B.hvw2.eq_unread hf12; obtain rfl := B.hvb2.eq_unread hf13
    obtain rfl := B.hloss.eq_unread hfL
    sl_exec (disch := first | exact hf | exact hl)
    sl_step
    iapply Hk
    isplitl [H0 H1 H2 H3 H4 H5 H6 H7 H8 H9 H10 H11 H12 H13]
    · isplitl [H0]; · iexists _; isplitr; · ipureintro; exact B.hstate.read_unread _
                      iexact H0
      isplitl [H1]; · iexists _; isplitr; · ipureintro; exact B.hlabel.read_unread _
                      iexact H1
      isplitl [H2]; · iexists _; isplitr; · ipureintro; exact B.hw1.read_unread _
                      iexact H2
      isplitl [H3]; · iexists _; isplitr; · ipureintro; exact B.hb1.read_unread _
                      iexact H3
      isplitl [H4]; · iexists _; isplitr; · ipureintro; exact B.hw2.read_unread _
                      iexact H4
      isplitl [H5]; · iexists _; isplitr; · ipureintro; exact B.hb2.read_unread _
                      iexact H5
      isplitl [H6]; · iexists _; isplitr; · ipureintro; exact B.hpw1.read_unread _
                      iexact H6
      isplitl [H7]; · iexists _; isplitr; · ipureintro; exact B.hpb1.read_unread _
                      iexact H7
      isplitl [H8]; · iexists _; isplitr; · ipureintro; exact B.hpw2.read_unread _
                      iexact H8
      isplitl [H9]; · iexists _; isplitr; · ipureintro; exact B.hpb2.read_unread _
                      iexact H9
      isplitl [H10]; · iexists _; isplitr; · ipureintro; exact B.hvw1.read_unread _
                       iexact H10
      isplitl [H11]; · iexists _; isplitr; · ipureintro; exact B.hvb1.read_unread _
                       iexact H11
      isplitl [H12]; · iexists _; isplitr; · ipureintro; exact B.hvw2.read_unread _
                       iexact H12
      iexists _; isplitr; · ipureintro; exact B.hvb2.read_unread _
      iexact H13
    isplitl [HA]
    · iexists _; iexact HA
    iexists _; iexact HL

end Cert.KernelIdeal.Region

end
-- ==== Proof.KI.Frame.lean ====
/-
  The kernel region's frame, for the idealized kernel's program: under no hypothesis on the inputs, every weakly
  fair execution of @main ends, faults nowhere, and leaves the sixteen arguments as launched; and every array
  the region stages ends at what the library computes from what the body leaves, point by point.

  What the body leaves in the two result buffers is told by recursion on the grid point:
  * at point 0 it resets the 1 × 1 loss, adds the block's sum, and stores the block of actions;
  * at a later point it finds the loss as the point before left it (the loss window is written back only after
    the last point, so its buffer is not touched in between) and adds the block's sum;
  * at point 249 it moreover divides by the number of edges.
  The fourteen input buffers hold their blocks at every point: the two that move are fetched at every point,
  the twelve weights and biases once, and the body only reads them.
-/
import proofs.«130535_j58952721105293_1_alg».proof.Proof.KI.RunFirst
import proofs.«130535_j58952721105293_1_alg».proof.Proof.KI.RunMid
import proofs.«130535_j58952721105293_1_alg».proof.Proof.KI.RunLast

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two result buffers -/

/-- The stores of each case tile each result buffer, so they cover it. -/
theorem cover_act_first (c : Dev nD) (i : grid0.Coords) (B : Bufs) (hf : isFirst i) (hl : ¬isLast i) (X : Ins F) (y : S2000x1.Idx) :
    ∃ pc ∈ (runFirst c i B hf hl X).1, y ∈ pc.1.set :=
  View.cover_of_tiledL (runFirst c i B hf hl X).1 S2000x1.size (by sl_kernel_rfl) y
theorem cover_loss_first (c : Dev nD) (i : grid0.Coords) (B : Bufs) (hf : isFirst i) (hl : ¬isLast i) (X : Ins F) (y : S1x1.Idx) :
    ∃ pc ∈ (runFirst c i B hf hl X).2.1, y ∈ pc.1.set :=
  View.cover_of_tiledL (runFirst c i B hf hl X).2.1 S1x1.size (by sl_kernel_rfl) y
theorem cover_act_mid (c : Dev nD) (i : grid0.Coords) (B : Bufs) (hf : ¬isFirst i) (hl : ¬isLast i) (X : Ins F) (acc : Vec F S1x1 .f32) (y : S2000x1.Idx) :
    ∃ pc ∈ (runMid c i B hf hl X acc).1, y ∈ pc.1.set :=
  View.cover_of_tiledL (runMid c i B hf hl X acc).1 S2000x1.size (by sl_kernel_rfl) y
theorem cover_loss_mid (c : Dev nD) (i : grid0.Coords) (B : Bufs) (hf : ¬isFirst i) (hl : ¬isLast i) (X : Ins F) (acc : Vec F S1x1 .f32) (y : S1x1.Idx) :
    ∃ pc ∈ (runMid c i B hf hl X acc).2.1, y ∈ pc.1.set :=
  View.cover_of_tiledL (runMid c i B hf hl X acc).2.1 S1x1.size (by sl_kernel_rfl) y
theorem cover_act_last (c : Dev nD) (i : grid0.Coords) (B : Bufs) (hf : ¬isFirst i) (hl : isLast i) (X : Ins F) (acc : Vec F S1x1 .f32) (y : S2000x1.Idx) :
    ∃ pc ∈ (runLast c i B hf hl X acc).1, y ∈ pc.1.set :=
  View.cover_of_tiledL (runLast c i B hf hl X acc).1 S2000x1.size (by sl_kernel_rfl) y
theorem cover_loss_last (c : Dev nD) (i : grid0.Coords) (B : Bufs) (hf : ¬isFirst i) (hl : isLast i) (X : Ins F) (acc : Vec F S1x1 .f32) (y : S1x1.Idx) :
    ∃ pc ∈ (runLast c i B hf hl X acc).2.1, y ∈ pc.1.set :=
  View.cover_of_tiledL (runLast c i B hf hl X acc).2.1 S1x1.size (by sl_kernel_rfl) y

/-- What each case leaves in the block of actions and in the loss: its pieces read back (over anything). -/
def actFirst (c : Dev nD) (i : grid0.Coords) (B : Bufs) (hf : isFirst i) (hl : ¬isLast i) (X : Ins F) : Vec F S2000x1 .f32 :=
  actView.read (Elt F) (actView.writes (Elt F) actView.junk (runFirst c i B hf hl X).1)
def lossFirst (c : Dev nD) (i : grid0.Coords) (B : Bufs) (hf : isFirst i) (hl : ¬isLast i) (X : Ins F) : Vec F S1x1 .f32 :=
  lossView.read (Elt F) (lossView.writes (Elt F) lossView.junk (runFirst c i B hf hl X).2.1)
def actMid (c : Dev nD) (i : grid0.Coords) (B : Bufs) (hf : ¬isFirst i) (hl : ¬isLast i) (X : Ins F) (acc : Vec F S1x1 .f32) : Vec F S2000x1 .f32 :=
  actView.read (Elt F) (actView.writes (Elt F) actView.junk (runMid c i B hf hl X acc).1)
def lossMid (c : Dev nD) (i : grid0.Coords) (B : Bufs) (hf : ¬isFirst i) (hl : ¬isLast i) (X : Ins F) (acc : Vec F S1x1 .f32) : Vec F S1x1 .f32 :=
  lossView.read (Elt F) (lossView.writes (Elt F) lossView.junk (runMid c i B hf hl X acc).2.1)
def actLast (c : Dev nD) (i : grid0.Coords) (B : Bufs) (hf : ¬isFirst i) (hl : isLast i) (X : Ins F) (acc : Vec F S1x1 .f32) : Vec F S2000x1 .f32 :=
  actView.read (Elt F) (actView.writes (Elt F) actView.junk (runLast c i B hf hl X acc).1)
def lossLast (c : Dev nD) (i : grid0.Coords) (B : Bufs) (hf : ¬isFirst i) (hl : isLast i) (X : Ins F) (acc : Vec F S1x1 .f32) : Vec F S1x1 .f32 :=
  lossView.read (Elt F) (lossView.writes (Elt F) lossView.junk (runLast c i B hf hl X acc).2.1)

/-! ## The two result buffers after each point -/

/-- What the block of actions and the loss hold after the body at position `n`: the case of `n`, at the
    point's buffers and input blocks, the loss over what the point before left. -/
def outsAt (c : Dev nD) : (n : ℕ) → n < cfg0.N → Vec F S2000x1 .f32 × Vec F S1x1 .f32
  | 0, hn =>
    (actFirst c (grid0.coords ⟨0, hn⟩) (bufsAt ⟨0, hn⟩) ((isFirst_iff ⟨0, hn⟩).mpr rfl)
        (fun h => by have h' : (0 : ℕ) = 249 := (isLast_iff ⟨0, hn⟩).mp h; omega) (blocksAt m c ⟨0, hn⟩),
      lossFirst c (grid0.coords ⟨0, hn⟩) (bufsAt ⟨0, hn⟩) ((isFirst_iff ⟨0, hn⟩).mpr rfl)
        (fun h => by have h' : (0 : ℕ) = 249 := (isLast_iff ⟨0, hn⟩).mp h; omega) (blocksAt m c ⟨0, hn⟩))
  | n + 1, hn =>
    if h : n + 1 = 249 then
      (actLast c (grid0.coords ⟨n + 1, hn⟩) (bufsAt ⟨n + 1, hn⟩) (fun h' => Nat.succ_ne_zero n ((isFirst_iff ⟨n + 1, hn⟩).mp h'))
          ((isLast_iff ⟨n + 1, hn⟩).mpr h) (blocksAt m c ⟨n + 1, hn⟩) (outsAt c n (Nat.lt_of_succ_lt hn)).2,
        lossLast c (grid0.coords ⟨n + 1, hn⟩) (bufsAt ⟨n + 1, hn⟩) (fun h' => Nat.succ_ne_zero n ((isFirst_iff ⟨n + 1, hn⟩).mp h'))
          ((isLast_iff ⟨n + 1, hn⟩).mpr h) (blocksAt m c ⟨n + 1, hn⟩) (outsAt c n (Nat.lt_of_succ_lt hn)).2)
    else
      (actMid c (grid0.coords ⟨n + 1, hn⟩) (bufsAt ⟨n + 1, hn⟩) (fun h' => Nat.succ_ne_zero n ((isFirst_iff ⟨n + 1, hn⟩).mp h'))
          (fun h' => h ((isLast_iff ⟨n + 1, hn⟩).mp h')) (blocksAt m c ⟨n + 1, hn⟩) (outsAt c n (Nat.lt_of_succ_lt hn)).2,
        lossMid c (grid0.coords ⟨n + 1, hn⟩) (bufsAt ⟨n + 1, hn⟩) (fun h' => Nat.succ_ne_zero n ((isFirst_iff ⟨n + 1, hn⟩).mp h'))
          (fun h' => h ((isLast_iff ⟨n + 1, hn⟩).mp h')) (blocksAt m c ⟨n + 1, hn⟩) (outsAt c n (Nat.lt_of_succ_lt hn)).2)

/-- `outsAt` at the first point. -/
theorem outsAt_first (c : Dev nD) (t : Fin cfg0.N) (h0 : t.val = 0) (hl : ¬isLast (grid0.coords t)) :
    outsAt m c t.val t.isLt =
      (actFirst c (grid0.coords t) (bufsAt t) ((isFirst_iff t).mpr h0) hl (blocksAt m c t),
        lossFirst c (grid0.coords t) (bufsAt t) ((isFirst_iff t).mpr h0) hl (blocksAt m c t)) := by
  obtain ⟨n, hn⟩ := t
  cases n with
  | zero => rfl
  | succ n => exact absurd h0 (Nat.succ_ne_zero n)

/-- `outsAt` at a middle point: over the loss the point before left. -/
theorem outsAt_mid (c : Dev nD) (t : Fin cfg0.N) (hf : ¬isFirst (grid0.coords t)) (hl : ¬isLast (grid0.coords t)) :
    outsAt m c t.val t.isLt =
      (actMid c (grid0.coords t) (bufsAt t) hf hl (blocksAt m c t) (outsAt m c (t.val - 1) (Nat.lt_of_le_of_lt (Nat.sub_le _ _) t.isLt)).2,
        lossMid c (grid0.coords t) (bufsAt t) hf hl (blocksAt m c t) (outsAt m c (t.val - 1) (Nat.lt_of_le_of_lt (Nat.sub_le _ _) t.isLt)).2) := by
  obtain ⟨n, hn⟩ := t
  cases n with
  | zero => exact absurd ((isFirst_iff ⟨0, hn⟩).mpr rfl) hf
  | succ n => exact (dif_neg (fun h => hl ((isLast_iff ⟨n + 1, hn⟩).mpr h))).trans rfl

/-- `outsAt` at the last point. -/
theorem outsAt_last (c : Dev nD) (t : Fin cfg0.N) (hf : ¬isFirst (grid0.coords t)) (hl : isLast (grid0.coords t)) :
    outsAt m c t.val t.isLt =
      (actLast c (grid0.coords t) (bufsAt t) hf hl (blocksAt m c t) (outsAt m c (t.val - 1) (Nat.lt_of_le_of_lt (Nat.sub_le _ _) t.isLt)).2,
        lossLast c (grid0.coords t) (bufsAt t) hf hl (blocksAt m c t) (outsAt m c (t.val - 1) (Nat.lt_of_le_of_lt (Nat.sub_le _ _) t.isLt)).2) := by
  obtain ⟨n, hn⟩ := t
  cases n with
  | zero => exact absurd ((isFirst_iff ⟨0, hn⟩).mpr rfl) hf
  | succ n => exact (dif_pos ((isLast_iff ⟨n + 1, hn⟩).mp hl)).trans rfl

/-! ## The proof data -/

/-- The proof data of the pipeline on core `c`: the arrays as the region finds them; after the body at point
    `t` each input's buffer at its block and the two results' at `outsAt`; the invariant is the scoped rest and
    the generator register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).1
    | ⟨15, _⟩ => (outsAt m c t.val t.isLt).2
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after_state (c : Dev nD) (t : Fin cfg0.N) : (dats m 0 c).after 0 t = iblk m c 0 t := by dsimp only [dats]
theorem after_label (c : Dev nD) (t : Fin cfg0.N) : (dats m 0 c).after 1 t = iblk m c 1 t := by dsimp only [dats]
theorem after_w1 (c : Dev nD) (t : Fin cfg0.N) : (dats m 0 c).after 2 t = iblk m c 2 t := by dsimp only [dats]
theorem after_b1 (c : Dev nD) (t : Fin cfg0.N) : (dats m 0 c).after 3 t = iblk m c 3 t := by dsimp only [dats]
theorem after_w2 (c : Dev nD) (t : Fin cfg0.N) : (dats m 0 c).after 4 t = iblk m c 4 t := by dsimp only [dats]
theorem after_b2 (c : Dev nD) (t : Fin cfg0.N) : (dats m 0 c).after 5 t = iblk m c 5 t := by dsimp only [dats]
theorem after_pw1 (c : Dev nD) (t : Fin cfg0.N) : (dats m 0 c).after 6 t = iblk m c 6 t := by dsimp only [dats]
theorem after_pb1 (c : Dev nD) (t : Fin cfg0.N) : (dats m 0 c).after 7 t = iblk m c 7 t := by dsimp only [dats]
theorem after_pw2 (c : Dev nD) (t : Fin cfg0.N) : (dats m 0 c).after 8 t = iblk m c 8 t := by dsimp only [dats]
theorem after_pb2 (c : Dev nD) (t : Fin cfg0.N) : (dats m 0 c).after 9 t = iblk m c 9 t := by dsimp only [dats]
theorem after_vw1 (c : Dev nD) (t : Fin cfg0.N) : (dats m 0 c).after 10 t = iblk m c 10 t := by dsimp only [dats]
theorem after_vb1 (c : Dev nD) (t : Fin cfg0.N) : (dats m 0 c).after 11 t = iblk m c 11 t := by dsimp only [dats]
theorem after_vw2 (c : Dev nD) (t : Fin cfg0.N) : (dats m 0 c).after 12 t = iblk m c 12 t := by dsimp only [dats]
theorem after_vb2 (c : Dev nD) (t : Fin cfg0.N) : (dats m 0 c).after 13 t = iblk m c 13 t := by dsimp only [dats]
theorem after_act (c : Dev nD) (t : Fin cfg0.N) : (dats m 0 c).after 14 t = (outsAt m c t.val t.isLt).1 := by dsimp only [dats]
theorem after_loss (c : Dev nD) (t : Fin cfg0.N) : (dats m 0 c).after 15 t = (outsAt m c t.val t.isLt).2 := by dsimp only [dats]

set_option hygiene false in
/-- An input's current staging buffer holds its block at every point, fetched there or not: a window not
    fetched at `t` has not moved since it was, and the body leaves every input block in place. -/
local macro "input_holds_block " w:term " by " h:term : tactic => `(tactic| exact
  (Dat.before_in_eq_fetched (dats m 0 c) $w rfl (fun _ => rfl) (fun _ _ _ => rfl)
    (fun t => by rw [$h:term]; unfold Dat.blockOf iblk; rw [A_eq]; try rfl) t d).trans
    (by unfold Dat.fetched Dat.blockOf iblk; rw [A_eq]; try rfl))
set_option maxHeartbeats 2000000 in
theorem before_state (c : Dev nD) (t : Fin cfg0.N) (d) : (dats m 0 c).before 0 t d = iblk m c 0 t := by input_holds_block 0 by after_state m c t
set_option maxHeartbeats 2000000 in
theorem before_label (c : Dev nD) (t : Fin cfg0.N) (d) : (dats m 0 c).before 1 t d = iblk m c 1 t := by input_holds_block 1 by after_label m c t
set_option maxHeartbeats 2000000 in
theorem before_w1 (c : Dev nD) (t : Fin cfg0.N) (d) : (dats m 0 c).before 2 t d = iblk m c 2 t := by input_holds_block 2 by after_w1 m c t
set_option maxHeartbeats 2000000 in
theorem before_b1 (c : Dev nD) (t : Fin cfg0.N) (d) : (dats m 0 c).before 3 t d = iblk m c 3 t := by input_holds_block 3 by after_b1 m c t
set_option maxHeartbeats 2000000 in
theorem before_w2 (c : Dev nD) (t : Fin cfg0.N) (d) : (dats m 0 c).before 4 t d = iblk m c 4 t := by input_holds_block 4 by after_w2 m c t
set_option maxHeartbeats 2000000 in
theorem before_b2 (c : Dev nD) (t : Fin cfg0.N) (d) : (dats m 0 c).before 5 t d = iblk m c 5 t := by input_holds_block 5 by after_b2 m c t
set_option maxHeartbeats 2000000 in
theorem before_pw1 (c : Dev nD) (t : Fin cfg0.N) (d) : (dats m 0 c).before 6 t d = iblk m c 6 t := by input_holds_block 6 by after_pw1 m c t
set_option maxHeartbeats 2000000 in
theorem before_pb1 (c : Dev nD) (t : Fin cfg0.N) (d) : (dats m 0 c).before 7 t d = iblk m c 7 t := by input_holds_block 7 by after_pb1 m c t
set_option maxHeartbeats 2000000 in
theorem before_pw2 (c : Dev nD) (t : Fin cfg0.N) (d) : (dats m 0 c).before 8 t d = iblk m c 8 t := by input_holds_block 8 by after_pw2 m c t
set_option maxHeartbeats 2000000 in
theorem before_pb2 (c : Dev nD) (t : Fin cfg0.N) (d) : (dats m 0 c).before 9 t d = iblk m c 9 t := by input_holds_block 9 by after_pb2 m c t
set_option maxHeartbeats 2000000 in
theorem before_vw1 (c : Dev nD) (t : Fin cfg0.N) (d) : (dats m 0 c).before 10 t d = iblk m c 10 t := by input_holds_block 10 by after_vw1 m c t
set_option maxHeartbeats 2000000 in
theorem before_vb1 (c : Dev nD) (t : Fin cfg0.N) (d) : (dats m 0 c).before 11 t d = iblk m c 11 t := by input_holds_block 11 by after_vb1 m c t
set_option maxHeartbeats 2000000 in
theorem before_vw2 (c : Dev nD) (t : Fin cfg0.N) (d) : (dats m 0 c).before 12 t d = iblk m c 12 t := by input_holds_block 12 by after_vw2 m c t
set_option maxHeartbeats 2000000 in
theorem before_vb2 (c : Dev nD) (t : Fin cfg0.N) (d) : (dats m 0 c).before 13 t d = iblk m c 13 t := by input_holds_block 13 by after_vb2 m c t

/-- At a later point the loss buffer holds what the body left at the point before: the loss window is written
    back after the last point only, so nothing touches its buffer between two points. -/
theorem before_loss (c : Dev nD) (t : Fin cfg0.N) (h0 : t.val ≠ 0) (d) :
    (dats m 0 c).before 15 t d = (outsAt m c (t.val - 1) (Nat.lt_of_le_of_lt (Nat.sub_le _ _) t.isLt)).2 := by
  have hN : t.val < 250 := lt_of_lt_of_eq t.isLt (show cfg0.N = 250 from N_0)
  rw [Dat.before_out_kept _ 15 rfl t h0 (Bool.eq_false_iff.mpr fun h => by have := (flush0_15 _).mp h; dsimp only at this; omega)
    (fun _ => rfl) (fun _ _ => rfl)]
  dsimp only [dats]

/-! ## The body obligation -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (bufsAt t).state fullShare ((dats m 0 c).before 0 t d))
    ∗ (∃ d, owns (c : Thread nD τ) (bufsAt t).label fullShare ((dats m 0 c).before 1 t d))
    ∗ (∃ d, owns (c : Thread nD τ) (bufsAt t).w1 fullShare ((dats m 0 c).before 2 t d))
    ∗ (∃ d, owns (c : Thread nD τ) (bufsAt t).b1 fullShare ((dats m 0 c).before 3 t d))
    ∗ (∃ d, owns (c : Thread nD τ) (bufsAt t).w2 fullShare ((dats m 0 c).before 4 t d))
    ∗ (∃ d, owns (c : Thread nD τ) (bufsAt t).b2 fullShare ((dats m 0 c).before 5 t d))
    ∗ (∃ d, owns (c : Thread nD τ) (bufsAt t).pw1 fullShare ((dats m 0 c).before 6 t d))
    ∗ (∃ d, owns (c : Thread nD τ) (bufsAt t).pb1 fullShare ((dats m 0 c).before 7 t d))
    ∗ (∃ d, owns (c : Thread nD τ) (bufsAt t).pw2 fullShare ((dats m 0 c).before 8 t d))
    ∗ (∃ d, owns (c : Thread nD τ) (bufsAt t).pb2 fullShare ((dats m 0 c).before 9 t d))
    ∗ (∃ d, owns (c : Thread nD τ) (bufsAt t).vw1 fullShare ((dats m 0 c).before 10 t d))
    ∗ (∃ d, owns (c : Thread nD τ) (bufsAt t).vb1 fullShare ((dats m 0 c).before 11 t d))
    ∗ (∃ d, owns (c : Thread nD τ) (bufsAt t).vw2 fullShare ((dats m 0 c).before 12 t d))
    ∗ (∃ d, owns (c : Thread nD τ) (bufsAt t).vb2 fullShare ((dats m 0 c).before 13 t d))
    ∗ (∃ d, owns (c : Thread nD τ) (bufsAt t).act fullShare ((dats m 0 c).before 14 t d))
    ∗ (∃ d, owns (c : Thread nD τ) (bufsAt t).loss fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (bufsAt t).state fullShare ((dats m 0 c).after 0 t)
    ∗ owns (c : Thread nD τ) (bufsAt t).label fullShare ((dats m 0 c).after 1 t)
    ∗ owns (c : Thread nD τ) (bufsAt t).w1 fullShare ((dats m 0 c).after 2 t)
    ∗ owns (c : Thread nD τ) (bufsAt t).b1 fullShare ((dats m 0 c).after 3 t)
    ∗ owns (c : Thread nD τ) (bufsAt t).w2 fullShare ((dats m 0 c).after 4 t)
    ∗ owns (c : Thread nD τ) (bufsAt t).b2 fullShare ((dats m 0 c).after 5 t)
    ∗ owns (c : Thread nD τ) (bufsAt t).pw1 fullShare ((dats m 0 c).after 6 t)
    ∗ owns (c : Thread nD τ) (bufsAt t).pb1 fullShare ((dats m 0 c).after 7 t)
    ∗ owns (c : Thread nD τ) (bufsAt t).pw2 fullShare ((dats m 0 c).after 8 t)
    ∗ owns (c : Thread nD τ) (bufsAt t).pb2 fullShare ((dats m 0 c).after 9 t)
    ∗ owns (c : Thread nD τ) (bufsAt t).vw1 fullShare ((dats m 0 c).after 10 t)
    ∗ owns (c : Thread nD τ) (bufsAt t).vb1 fullShare ((dats m 0 c).after 11 t)
    ∗ owns (c : Thread nD τ) (bufsAt t).vw2 fullShare ((dats m 0 c).after 12 t)
    ∗ owns (c : Thread nD τ) (bufsAt t).vb2 fullShare ((dats m 0 c).after 13 t)
    ∗ owns (c : Thread nD τ) (bufsAt t).act fullShare ((dats m 0 c).after 14 t)
    ∗ owns (c : Thread nD τ) (bufsAt t).loss fullShare ((dats m 0 c).after 15 t))

set_option maxHeartbeats 4000000 in
/-- The body at any point: the inputs' buffers hold their blocks; the two closed forms say which case the point
    is in; at a later point the loss buffer holds what the point before left; so that case's run applies. The
    invariant passes through untouched and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_state, before_label, before_w1, before_b1, before_w2, before_b2, before_pw1, before_pb1, before_pw2, before_pb2,
    before_vw1, before_vb1, before_vw2, before_vb2]
  rw [show (dats m 0 c).Φ t.succ = (dats m 0 c).Φ t.castSucc from rfl,
    show (dats m 0 c).owesAt () t.succ = (dats m 0 c).owesAt () t.castSucc from rfl,
    after_state, after_label, after_w1, after_b1, after_w2, after_b2, after_pw1, after_pb1, after_pw2, after_pb2,
    after_vw1, after_vb1, after_vw2, after_vb2, after_act, after_loss]
  have hN : t.val < 250 := lt_of_lt_of_eq t.isLt (show cfg0.N = 250 from N_0)
  by_cases hf : isFirst (grid0.coords t)
  · have h0 : t.val = 0 := (isFirst_iff t).mp hf
    have hl : ¬isLast (grid0.coords t) := fun h => by have := (isLast_iff t).mp h; omega
    rw [outsAt_first m c t h0 hl]
    dsimp only
    unfold actFirst lossFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runFirst c (grid0.coords t) (bufsAt t) ((isFirst_iff t).mpr h0) hl (blocksAt m c t)).2.2 Set.univ _)
    isplitl [H0 H1 H2 H3 H4 H5 H6 H7 H8 H9 H10 H11 H12 H13]
    · unfold insAt blocksAt
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexists _; iexact H14
    isplitl [H15]; · iexists _; iexact H15
    iintro ⟨Hins, ⟨%eA, HA⟩, ⟨%eL, HL⟩⟩
    isplitl [HΦ]; · iexact HΦ
    isplitl [Ho]; · iexact Ho
    unfold insAt blocksAt
    icases Hins with ⟨H0, H1, H2, H3, H4, H5, H6, H7, H8, H9, H10, H11, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HA]
    · unfold owns; iexists _; isplitr
      swap; · iexact HA
      ipureintro; exact View.read_writes_of_cover _ _ _ _ _ (cover_act_first c _ _ _ _ _)
    unfold owns; iexists _; isplitr
    swap; · iexact HL
    ipureintro; exact View.read_writes_of_cover _ _ _ _ _ (cover_loss_first c _ _ _ _ _)
  · have h0 : t.val ≠ 0 := fun h => hf ((isFirst_iff t).mpr h)
    by_cases hl : isLast (grid0.coords t)
    · rw [outsAt_last m c t hf hl]
      dsimp only
      simp only [before_loss m c t h0]
      unfold actLast lossLast
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runLast c (grid0.coords t) (bufsAt t) hf hl (blocksAt m c t) _).2.2 Set.univ _)
      isplitl [H0 H1 H2 H3 H4 H5 H6 H7 H8 H9 H10 H11 H12 H13]
      · unfold insAt blocksAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [H14]; · iexists _; iexact H14
      isplitl [H15]; · iexact H15
      iintro ⟨Hins, ⟨%eA, HA⟩, ⟨%eL, HL⟩⟩
      isplitl [HΦ]; · iexact HΦ
      isplitl [Ho]; · iexact Ho
      unfold insAt blocksAt
      icases Hins with ⟨H0, H1, H2, H3, H4, H5, H6, H7, H8, H9, H10, H11, H12, H13⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HA]
      · unfold owns; iexists _; isplitr
        swap; · iexact HA
        ipureintro; exact View.read_writes_of_cover _ _ _ _ _ (cover_act_last c _ _ _ _ _ _)
      unfold owns; iexists _; isplitr
      swap; · iexact HL
      ipureintro; exact View.read_writes_of_cover _ _ _ _ _ (cover_loss_last c _ _ _ _ _ _)
    · rw [outsAt_mid m c t hf hl]
      dsimp only
      simp only [before_loss m c t h0]
      unfold actMid lossMid
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runMid c (grid0.coords t) (bufsAt t) hf hl (blocksAt m c t) _).2.2 Set.univ _)
      isplitl [H0 H1 H2 H3 H4 H5 H6 H7 H8 H9 H10 H11 H12 H13]
      · unfold insAt blocksAt
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [H14]; · iexists _; iexact H14
      isplitl [H15]; · iexact H15
      iintro ⟨Hins, ⟨%eA, HA⟩, ⟨%eL, HL⟩⟩
      isplitl [HΦ]; · iexact HΦ
      isplitl [Ho]; · iexact Ho
      unfold insAt blocksAt
      icases Hins with ⟨H0, H1, H2, H3, H4, H5, H6, H7, H8, H9, H10, H11, H12, H13⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HA]
      · unfold owns; iexists _; isplitr
        swap; · iexact HA
        ipureintro; exact View.read_writes_of_cover _ _ _ _ _ (cover_act_mid c _ _ _ _ _ _)
      unfold owns; iexists _; isplitr
      swap; · iexact HL
      ipureintro; exact View.read_writes_of_cover _ _ _ _ _ (cover_loss_mid c _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state
    has every array of the pipeline at what the library computes from the proof data and every other unscoped
    buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The array of an input window ends as the region found it: it is never written back. -/
theorem staged_kept (c : Dev nD) (w : Fin cfg0.W) (hw : (cfg0.win w).isOut = false)
    (r : PUnit × MemSt nD τ sig (Elt F)) (h : Pipeline.FramePost cfgs (dats m) 0 (Pipeline.afterTail₀ cfgs (dats m) 0 (V0 m) [hostOps1]) r) :
    r.2.mem (((cfgs 0).spec w).arr.view.loc (c.tc : Thread nD τ)) = V m c (Pipeline.arrRef spec0 w) :=
  ((h c).1 w).trans (((dats m 0 c).arrAt_in w hw _).trans (A_eq m c w))

/-- An argument no window stages ends as launched: the region leaves it alone and so does the line after it. -/
theorem unstaged_kept (c : Dev nD) (b : Ref sig .tc) (hs : b.isScoped = false) (hb : ∀ w, (spec0 w).arr.view.ref ≠ b)
    (r : PUnit × MemSt nD τ sig (Elt F)) (h : Pipeline.FramePost cfgs (dats m) 0 (Pipeline.afterTail₀ cfgs (dats m) 0 (V0 m) [hostOps1]) r) :
    r.2.mem ((c.tc : Thread nD τ).loc b) = Pipeline.afterTail₀ cfgs (dats m) 0 (V0 m) [hostOps1] c b :=
  (h c).2 b (Pipeline.mem_restRefs_of b hs hb)

/-- The sixteen arguments are as launched. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)
  ∧ r.2.mem ((c.tc : Thread nD τ).loc main_arg13) = m ((c.tc : Thread nD τ).loc main_arg13)
  ∧ r.2.mem ((c.tc : Thread nD τ).loc main_arg14) = m ((c.tc : Thread nD τ).loc main_arg14)
  ∧ r.2.mem ((c.tc : Thread nD τ).loc main_arg15) = m ((c.tc : Thread nD τ).loc main_arg15)

theorem args_kept (r : PUnit × MemSt nD τ sig (Elt F))
    (h : Pipeline.FramePost cfgs (dats m) 0 (Pipeline.afterTail₀ cfgs (dats m) 0 (V0 m) [hostOps1]) r) (c : Dev nD) : ArgsKept m r c :=
  ⟨(unstaged_kept m c main_arg0 (by decide) (by decide) r h).trans (W_arg m (dats m) c 0 (by decide)),
    (unstaged_kept m c main_arg1 (by decide) (by decide) r h).trans (W_arg m (dats m) c 1 (by decide)),
    (unstaged_kept m c main_arg2 (by decide) (by decide) r h).trans (W_arg m (dats m) c 2 (by decide)),
    (unstaged_kept m c main_arg3 (by decide) (by decide) r h).trans (W_arg m (dats m) c 3 (by decide)),
    (staged_kept m c 2 rfl r h).trans (V_arg m c 4), (staged_kept m c 3 rfl r h).trans (V_arg m c 5),
    (staged_kept m c 4 rfl r h).trans (V_arg m c 6), (staged_kept m c 5 rfl r h).trans (V_arg m c 7),
    (staged_kept m c 6 rfl r h).trans (V_arg m c 8), (staged_kept m c 7 rfl r h).trans (V_arg m c 9),
    (staged_kept m c 8 rfl r h).trans (V_arg m c 10), (staged_kept m c 9 rfl r h).trans (V_arg m c 11),
    (staged_kept m c 10 rfl r h).trans (V_arg m c 12), (staged_kept m c 11 rfl r h).trans (V_arg m c 13),
    (staged_kept m c 12 rfl r h).trans (V_arg m c 14), (staged_kept m c 13 rfl r h).trans (V_arg m c 15)⟩

/-- THE FRAME, at any float instance: @main ends and leaves the sixteen arguments as launched. -/
theorem frame : θ_run defs (onTc (τ := τ) (main (F := F))) ⟨m, fun _ => 0, ρ⟩ (fun r => ∀ c : Dev nD, ArgsKept m r c) :=
  (θ_run defs _ _).mono (fun r h c => args_kept m r h c) (run_main m ρ)

end Cert.KernelIdeal.Region

end
-- ==== Proof.KI.Pieces.lean ====
/-
  What each case of the body leaves in the two result buffers, as values.

  The runs found the stores as lists of pieces; read back, each list is one function of the input blocks (and,
  after the first point, of the running loss `acc`):
  * the block of actions is the policy head's payload of the input blocks, at every point;
  * the loss is, at the first point, "zero plus the block's sum"; at a later point "`acc` plus the block's
    sum"; at the last point that, divided by the number of edges.
  Here "the block's sum" is the value head's payload: the sum over the block's 2000 rows of the loss terms.
-/
import proofs.«130535_j58952721105293_1_alg».proof.Proof.KI.Frame
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The policy head on the input blocks: the block of actions. -/
abbrev actOf (X : Ins F) : FVec F S2000x1 .f32 := k0_pay6 (k0_pay5 X.state X.w1 X.b1 X.w2 X.b2 X.pw1 X.pb1 X.pw2) X.pb2
/-- The value head on the input blocks, against the labels: the block's sum of loss terms, as a 1 × 1 array. -/
abbrev blockSumOf (X : Ins F) : FVec F S1x1 .f32 := k0_pay7 (k0_pay4 X.state X.w1 X.b1 X.w2 X.b2) X.vw1 X.vb1 X.vw2 X.vb2 X.label

theorem actFirst_eq (c : Dev nD) (i : grid0.Coords) (B : Bufs) (hf : isFirst i) (hl : ¬isLast i) (X : Ins F) :
    actFirst c i B hf hl X = actOf X := by
  unfold actFirst
  rw [View.read_writes_eq_canon _ _ _ (cover_act_first c i B hf hl X)]
  unfold runFirst
  dsimp only
  sl_unfold_words
  rw [View.canon_unit_zero hz2]
  simp only [View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

theorem lossFirst_eq (c : Dev nD) (i : grid0.Coords) (B : Bufs) (hf : isFirst i) (hl : ¬isLast i) (X : Ins F) :
    lossFirst c i B hf hl X = k0_pay1 (blockSumOf X) (k0_pay3 (F := F)) := by
  unfold lossFirst
  rw [View.read_writes_eq_canon _ _ _ (cover_loss_first c i B hf hl X)]
  unfold runFirst
  dsimp only
  sl_unfold_words
  rw [View.canon_cons_unit_zero (S := S1x1) hz2]
  simp only [View.readCov_unit_zero (S := S1x1) _ hz2, View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

theorem actMid_eq (c : Dev nD) (i : grid0.Coords) (B : Bufs) (hf : ¬isFirst i) (hl : ¬isLast i) (X : Ins F) (acc : Vec F S1x1 .f32) :
    actMid c i B hf hl X acc = actOf X := by
  unfold actMid
  rw [View.read_writes_eq_canon _ _ _ (cover_act_mid c i B hf hl X acc)]
  unfold runMid
  dsimp only
  sl_unfold_words
  rw [View.canon_unit_zero hz2]
  simp only [View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

theorem lossMid_eq (c : Dev nD) (i : grid0.Coords) (B : Bufs) (hf : ¬isFirst i) (hl : ¬isLast i) (X : Ins F) (acc : Vec F S1x1 .f32) :
    lossMid c i B hf hl X acc = k0_pay1 (blockSumOf X) acc := by
  unfold lossMid
  rw [View.read_writes_eq_canon _ _ _ (cover_loss_mid c i B hf hl X acc)]
  unfold runMid
  dsimp only
  sl_unfold_words
  rw [View.canon_unit_zero hz2]
  simp only [View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

theorem actLast_eq (c : Dev nD) (i : grid0.Coords) (B : Bufs) (hf : ¬isFirst i) (hl : isLast i) (X : Ins F) (acc : Vec F S1x1 .f32) :
    actLast c i B hf hl X acc = actOf X := by
  unfold actLast
  rw [View.read_writes_eq_canon _ _ _ (cover_act_last c i B hf hl X acc)]
  unfold runLast
  dsimp only
  sl_unfold_words
  rw [View.canon_unit_zero hz2]
  simp only [View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

theorem lossLast_eq (c : Dev nD) (i : grid0.Coords) (B : Bufs) (hf : ¬isFirst i) (hl : isLast i) (X : Ins F) (acc : Vec F S1x1 .f32) :
    lossLast c i B hf hl X acc = k0_pay2 (k0_pay1 (blockSumOf X) acc) := by
  unfold lossLast
  rw [View.read_writes_eq_canon _ _ _ (cover_loss_last c i B hf hl X acc)]
  unfold runLast
  dsimp only
  sl_unfold_words
  rw [View.canon_cons_unit_zero (S := S1x1) hz2]
  simp only [View.readCov_unit_zero (S := S1x1) _ hz2, View.readAt_eq_ld, B.hstate.read_unread, B.hlabel.read_unread, B.hw1.read_unread, B.hb1.read_unread, B.hw2.read_unread, B.hb2.read_unread, B.hpw1.read_unread, B.hpb1.read_unread, B.hpw2.read_unread, B.hpb2.read_unread, B.hvw1.read_unread, B.hvb1.read_unread, B.hvw2.read_unread, B.hvb2.read_unread, B.hloss.read_unread, View.ld_unit_zero (S := S2000x384) hz2, View.ld_unit_zero (S := S2000x1) hz2, View.ld_unit_zero (S := S384x256) hz2, View.ld_unit_zero (S := S256x256) hz2, View.ld_unit_zero (S := S256x128) hz2, View.ld_unit_zero (S := S128x1) hz2, View.ld_unit_zero (S := S1x1) hz2, View.ld_unit_zero (S := S256) hz1, View.ld_unit_zero (S := S128) hz1, View.ld_unit_zero (S := S1) hz1]

end Cert.KernelIdeal.Region

end
-- ==== Proof.Spec.lean ====
/-
  The edge network, as mathematics on the extended reals.

  Every edge `e` carries a state row `s = state e` of 384 numbers (the features of its two end nodes and
  the guidance features of its target, side by side) and a label `y e`. Three small networks act on the row:

    hidden  s = W₂ᵀ relu (W₁ᵀ s + b₁) + b₂                       (384 → 256 → 256)
    policy  s = pw₂ᵀ relu (pw₁ᵀ hidden s + pb₁) + pb₂            (256 → 128 → 1)
    value   s = vw₂ᵀ relu (vw₁ᵀ hidden s + vb₁) + vb₂            (256 → 128 → 1)

  The first result is the action of every edge: 1 when the logistic of the policy logit exceeds one half,
  else 0. The second is the mean over the 500000 edges of the binary cross-entropy of the value logit `z`
  against the label: `max z 0 − z·y + log (1 + e^(−|z|))`.

  Nothing here mentions a program: both programs are shown to compute these two functions of the state rows,
  the labels and the twelve weight and bias arrays. Sums are finite sums in the extended reals, where addition
  is commutative and associative without any side condition, so how a program groups or orders a sum does
  not matter; that is the only law the comparison of the two programs needs.
-/
import Idealize.ShloMosaic.PureOps.Ideal
import Idealize.ShloMosaic.PureOps.Ideal.Laws
import Idealize.ShloMosaic.Lib.ValueIdx

noncomputable section

namespace Cert.EdgeNet

open Idealize.ShloMosaic

/-- One dense layer applied to a row: output `j` is `∑ k, s k · W (k, j) + b j`. -/
def dense {K N : ℕ} (s : Fin K → EReal) (W : Fin K → Fin N → EReal) (b : Fin N → EReal) (j : Fin N) : EReal :=
  (∑ k : Fin K, s k * W k j) + b j

/-- The rectifier. -/
def relu {N : ℕ} (s : Fin N → EReal) (j : Fin N) : EReal := max (s j) 0

/-- The twelve weight and bias arrays, as functions of their coordinates. -/
structure Params where
  w1 : Fin 384 → Fin 256 → EReal
  b1 : Fin 256 → EReal
  w2 : Fin 256 → Fin 256 → EReal
  b2 : Fin 256 → EReal
  pw1 : Fin 256 → Fin 128 → EReal
  pb1 : Fin 128 → EReal
  pw2 : Fin 128 → Fin 1 → EReal
  pb2 : Fin 1 → EReal
  vw1 : Fin 256 → Fin 128 → EReal
  vb1 : Fin 128 → EReal
  vw2 : Fin 128 → Fin 1 → EReal
  vb2 : Fin 1 → EReal

/-- The parameters read off the twelve weight and bias arrays, in the order both programs take them. -/
def Params.ofArrays
    (w1 : (⟨2, ![384, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (pw1 : (⟨2, ![256, 128]⟩ : Shape).Idx → EReal) (pb1 : (⟨1, ![128]⟩ : Shape).Idx → EReal)
    (pw2 : (⟨2, ![128, 1]⟩ : Shape).Idx → EReal) (pb2 : (⟨1, ![1]⟩ : Shape).Idx → EReal)
    (vw1 : (⟨2, ![256, 128]⟩ : Shape).Idx → EReal) (vb1 : (⟨1, ![128]⟩ : Shape).Idx → EReal)
    (vw2 : (⟨2, ![128, 1]⟩ : Shape).Idx → EReal) (vb2 : (⟨1, ![1]⟩ : Shape).Idx → EReal) : Params where
  w1 k j := w1 (ValueIdx.ix2 k j)
  b1 j := b1 (ValueIdx.ix1 j)
  w2 k j := w2 (ValueIdx.ix2 k j)
  b2 j := b2 (ValueIdx.ix1 j)
  pw1 k j := pw1 (ValueIdx.ix2 k j)
  pb1 j := pb1 (ValueIdx.ix1 j)
  pw2 k j := pw2 (ValueIdx.ix2 k j)
  pb2 j := pb2 (ValueIdx.ix1 j)
  vw1 k j := vw1 (ValueIdx.ix2 k j)
  vb1 j := vb1 (ValueIdx.ix1 j)
  vw2 k j := vw2 (ValueIdx.ix2 k j)
  vb2 j := vb2 (ValueIdx.ix1 j)

variable (P : Params)

/-- The state encoder on one row. -/
def hidden (s : Fin 384 → EReal) : Fin 256 → EReal := dense (relu (dense s P.w1 P.b1)) P.w2 P.b2
/-- The policy logit of one row. -/
def policy (s : Fin 384 → EReal) : EReal := dense (relu (dense (hidden P s) P.pw1 P.pb1)) P.pw2 P.pb2 0
/-- The value logit of one row. -/
def value (s : Fin 384 → EReal) : EReal := dense (relu (dense (hidden P s) P.vw1 P.vb1)) P.vw2 P.vb2 0

/-- A one-bit word as the number 0 or 1. -/
def bit01 (b : BitVec 1) : EReal := ((b.toNat : ℝ) : EReal)

/-- One half, as the float pattern both programs spell. -/
abbrev half : EReal := Ideal.ofBits .f32 0x3F000000#32
/-- The number of edges, 500000, as the float pattern both programs spell. -/
abbrev nEdges : EReal := Ideal.ofBits .f32 0x48F42400#32

/-- The action of one row: 1 when the logistic of its policy logit is above one half. -/
def action (s : Fin 384 → EReal) : EReal := bit01 (Ideal.cmp .ogt (Ideal.logistic (policy P s)) half)

/-- The cross-entropy of a logit `z` against a label `y`, in the numerically stable form both programs use. -/
def bce (z y : EReal) : EReal := max z 0 - z * y + Ideal.log1p (Ideal.exp (-(max z (-z))))

/-- The loss term of one row with its label. -/
def lossTerm (s : Fin 384 → EReal) (y : EReal) : EReal := bce (value P s) y

/-- Row `e` of a two-dimensional array. -/
def row {R K : ℕ} (a : (⟨2, ![R, K]⟩ : Shape).Idx → EReal) (e : Fin R) : Fin K → EReal := fun k => a (ValueIdx.ix2 e k)

/-- THE FIRST RESULT: the action of every edge, as a 500000 × 1 array. -/
def actions (state : (⟨2, ![500000, 384]⟩ : Shape).Idx → EReal) : (⟨2, ![500000, 1]⟩ : Shape).Idx → EReal :=
  fun i => action P (row state (i 0))

/-- THE SECOND RESULT: the mean loss over all edges. -/
def meanLoss (state : (⟨2, ![500000, 384]⟩ : Shape).Idx → EReal) (y : (⟨2, ![500000, 1]⟩ : Shape).Idx → EReal) : EReal :=
  Ideal.div (∑ e : Fin 500000, lossTerm P (row state e) (y (ValueIdx.ix2 e 0))) nEdges

/-! ## The sum, block by block

The kernel walks the edges in 250 blocks of 2000. At each block it adds the block's sum of loss terms (itself
started from zero) to a running total that was reset to zero before the first block. -/

/-- The sum of the loss terms of block `t` (rows `2000·t … 2000·t + 1999`), started from zero. -/
def blockLoss (term : Fin 500000 → EReal) (t : ℕ) (ht : t < 250) : EReal :=
  0 + ∑ r : Fin 2000, term ⟨2000 * t + r.val, by have := r.isLt; omega⟩

/-- The running total after block `n`. -/
def running (term : Fin 500000 → EReal) : (n : ℕ) → n < 250 → EReal
  | 0, h => 0 + blockLoss term 0 h
  | n + 1, h => running term n (Nat.lt_of_succ_lt h) + blockLoss term (n + 1) h

end Cert.EdgeNet

end
-- ==== Proof.KI.SpecInputs.lean ====
/-
  What the specification is applied to on the kernel's side: the twelve weight and bias arrays, the state array
  and the label column, all as the kernel region finds them (extended reals for floats), and the loss term of
  each edge.
-/
import proofs.«130535_j58952721105293_1_alg».proof.Proof.KI.Entry
import proofs.«130535_j58952721105293_1_alg».proof.Proof.Spec

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

open Cert.EdgeNet ValueIdx

/-! ## The specification's inputs, as the region finds them -/

/-- The twelve weight and bias arrays. -/
def params (c : Dev nD) : Params :=
  Params.ofArrays (V m c main_arg4) (V m c main_arg5) (V m c main_arg6) (V m c main_arg7) (V m c main_arg8) (V m c main_arg9)
    (V m c main_arg10) (V m c main_arg11) (V m c main_arg12) (V m c main_arg13) (V m c main_arg14) (V m c main_arg15)
/-- The state array: one row of 384 numbers per edge. -/
abbrev stateArr (c : Dev nD) : S500000x384.Idx → EReal := V m c main_v25
/-- The label column. -/
abbrev labelArr (c : Dev nD) : S500000x1.Idx → EReal := V m c main_v34
/-- The loss term of edge `e`. -/
def term (c : Dev nD) (e : Fin 500000) : EReal := lossTerm (params m c) (row (stateArr m c) e) (labelArr m c (ix2 e 0))

end Cert.KernelIdeal.Region

end
-- ==== Proof.KI.PayloadMatmul.lean ====
/-
  The four matrix products of the edge network's kernel, each read at one output entry.

  Every product is taken into a zero accumulator, with the second axis of the left operand contracted against
  the first axis of the right one. At the extended reals such a product, read at row `r` and column `j`, is
  the finite sum over the contracted coordinate `k` of `a (r, k) * b (k, j)`: no rounding, no order. The
  contraction index of the dimension numbers is a one-axis index; it is exchanged for its one coordinate, and
  the two operand indices the dimension numbers compute are identified, axis by axis, with `(r, k)` and `(k, j)`.
-/
import proofs.«130535_j58952721105293_1_alg».proof.Proof.KI.Entry
import Idealize.ShloMosaic.PureOps.Ideal.Laws
import Idealize.ShloMosaic.Lib.ValueIdx

noncomputable section

namespace Cert.KernelIdeal.Payload

open Idealize.ShloMosaic Idealize.ShloMosaic.ValueIdx
open Cert.KernelIdeal Cert.KernelIdeal.Gen

/-! ## the encoder's first product, a [2000, 384] block of state rows against the [384, 256] weights -/

/-- The left operand's row coordinate is the output's row coordinate. -/
theorem lhs_enc1_0 (i : S2000x256.Idx) (q : dot_S2000x384_S384x256_S2000x256_1_0_0_1_n_n.contr.Idx) :
    (dot_S2000x384_S384x256_S2000x256_1_0_0_1_n_n.lhsIdx i q 0).val = (i 0).val := by
  unfold DotDims.lhsIdx
  rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
  rfl
/-- The left operand's column coordinate is the contracted coordinate. -/
theorem lhs_enc1_1 (i : S2000x256.Idx) (q : dot_S2000x384_S384x256_S2000x256_1_0_0_1_n_n.contr.Idx) :
    (dot_S2000x384_S384x256_S2000x256_1_0_0_1_n_n.lhsIdx i q 1).val = (q ⟨0, by decide⟩).val :=
  dot_S2000x384_S384x256_S2000x256_1_0_0_1_n_n.lhsIdx_val_of_single rfl i q
/-- The right operand's row coordinate is the contracted coordinate. -/
theorem rhs_enc1_0 (i : S2000x256.Idx) (q : dot_S2000x384_S384x256_S2000x256_1_0_0_1_n_n.contr.Idx) :
    (dot_S2000x384_S384x256_S2000x256_1_0_0_1_n_n.rhsIdx i q 0).val = (q ⟨0, by decide⟩).val :=
  dot_S2000x384_S384x256_S2000x256_1_0_0_1_n_n.rhsIdx_val_of_single rfl i q
/-- The right operand's column coordinate is the output's column coordinate. -/
theorem rhs_enc1_1 (i : S2000x256.Idx) (q : dot_S2000x384_S384x256_S2000x256_1_0_0_1_n_n.contr.Idx) :
    (dot_S2000x384_S384x256_S2000x256_1_0_0_1_n_n.rhsIdx i q 1).val = (i 1).val := by
  unfold DotDims.rhsIdx
  rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
  rfl

/-- Entry `(r, j)` of the product into zero: `∑ k, a (r, k) * b (k, j)`. -/
theorem matmul_enc1_apply (a : FVec Ideal S2000x384 .bf16) (b : FVec Ideal S384x256 .bf16) (r : Fin 2000) (j : Fin 256) :
    matmul dot_S2000x384_S384x256_S2000x256_1_0_0_1_n_n none a b (constant S2000x256 .f32 0x00000000#32) (ix2 r j)
      = ∑ k : Fin 384, a (ix2 r k) * b (ix2 k j) := by
  simp only [matmul]
  rw [Ideal.matmul_constant_zero_apply, ← Equiv.sum_comp (contrEquiv1 dot_S2000x384_S384x256_S2000x256_1_0_0_1_n_n 384 rfl rfl).symm]
  refine Finset.sum_congr rfl fun k _ => ?_
  have hk := contrEquiv1_symm_val dot_S2000x384_S384x256_S2000x256_1_0_0_1_n_n 384 rfl rfl k
  have el : dot_S2000x384_S384x256_S2000x256_1_0_0_1_n_n.lhsIdx (ix2 r j) ((contrEquiv1 dot_S2000x384_S384x256_S2000x256_1_0_0_1_n_n 384 rfl rfl).symm k) = ix2 r k := funext fun c => Fin.ext (by
    match c with
    | ⟨0, _⟩ => exact lhs_enc1_0 _ _
    | ⟨1, _⟩ => exact (lhs_enc1_1 _ _).trans hk)
  have er : dot_S2000x384_S384x256_S2000x256_1_0_0_1_n_n.rhsIdx (ix2 r j) ((contrEquiv1 dot_S2000x384_S384x256_S2000x256_1_0_0_1_n_n 384 rfl rfl).symm k) = ix2 k j := funext fun c => Fin.ext (by
    match c with
    | ⟨0, _⟩ => exact (rhs_enc1_0 _ _).trans hk
    | ⟨1, _⟩ => exact rhs_enc1_1 _ _)
  rw [el, er]

/-! ## the encoder's second product, [2000, 256] against [256, 256] -/

/-- The left operand's row coordinate is the output's row coordinate. -/
theorem lhs_enc2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contracted coordinate. -/
theorem lhs_enc2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row coordinate is the contracted coordinate. -/
theorem rhs_enc2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column coordinate is the output's column coordinate. -/
theorem rhs_enc2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry `(r, j)` of the product into zero: `∑ k, a (r, k) * b (k, j)`. -/
theorem matmul_enc2_apply (a : FVec Ideal S2000x256 .bf16) (b : FVec Ideal S256x256 .bf16) (r : Fin 2000) (j : Fin 256) :
    matmul dot_S2000x256_S256x256_S2000x256_1_0_0_1_n_n none a b (constant S2000x256 .f32 0x00000000#32) (ix2 r j)
      = ∑ k : Fin 256, a (ix2 r k) * b (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun c => Fin.ext (by
    match c with
    | ⟨0, _⟩ => exact lhs_enc2_0 _ _
    | ⟨1, _⟩ => exact (lhs_enc2_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun c => Fin.ext (by
    match c with
    | ⟨0, _⟩ => exact (rhs_enc2_0 _ _).trans hk
    | ⟨1, _⟩ => exact rhs_enc2_1 _ _)
  rw [el, er]

/-! ## a head's first product, the [2000, 256] hidden block against [256, 128] weights -/

/-- The left operand's row coordinate is the output's row coordinate. -/
theorem lhs_head1_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contracted coordinate. -/
theorem lhs_head1_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contracted coordinate. -/
theorem rhs_head1_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column coordinate. -/
theorem rhs_head1_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(r, j)` of the product into zero: `∑ k, a (r, k) * b (k, j)`. -/
theorem matmul_head1_apply (a : FVec Ideal S2000x256 .bf16) (b : FVec Ideal S256x128 .bf16) (r : Fin 2000) (j : Fin 128) :
    matmul dot_S2000x256_S256x128_S2000x128_1_0_0_1_n_n none a b (constant S2000x128 .f32 0x00000000#32) (ix2 r j)
      = ∑ k : Fin 256, a (ix2 r k) * b (ix2 k j) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 r j) ((contrEquiv1 dot_S2000x256_S256x128_S2000x128_1_0_0_1_n_n 256 rfl rfl).symm k) = ix2 r k := funext fun c => Fin.ext (by
    match c with
    | ⟨0, _⟩ => exact lhs_head1_0 _ _
    | ⟨1, _⟩ => exact (lhs_head1_1 _ _).trans hk)
  have er : dot_S2000x256_S256x128_S2000x128_1_0_0_1_n_n.rhsIdx (ix2 r j) ((contrEquiv1 dot_S2000x256_S256x128_S2000x128_1_0_0_1_n_n 256 rfl rfl).symm k) = ix2 k j := funext fun c => Fin.ext (by
    match c with
    | ⟨0, _⟩ => exact (rhs_head1_0 _ _).trans hk
    | ⟨1, _⟩ => exact rhs_head1_1 _ _)
  rw [el, er]

/-! ## a head's second product, [2000, 128] against the [128, 1] column of weights -/

/-- The left operand's row coordinate is the output's row coordinate. -/
theorem lhs_head2_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- The left operand's column coordinate is the contracted coordinate. -/
theorem lhs_head2_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
/-- The right operand's row coordinate is the contracted coordinate. -/
theorem rhs_head2_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
/-- The right operand's column coordinate is the output's column coordinate. -/
theorem rhs_head2_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Entry `(r, j)` of the product into zero: `∑ k, a (r, k) * b (k, j)`. -/
theorem matmul_head2_apply (a : FVec Ideal S2000x128 .bf16) (b : FVec Ideal S128x1 .bf16) (r : Fin 2000) (j : Fin 1) :
    matmul dot_S2000x128_S128x1_S2000x1_1_0_0_1_n_n none a b (constant S2000x1 .f32 0x00000000#32) (ix2 r j)
      = ∑ k : Fin 128, a (ix2 r k) * b (ix2 k j) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 r j) ((contrEquiv1 dot_S2000x128_S128x1_S2000x1_1_0_0_1_n_n 128 rfl rfl).symm k) = ix2 r k := funext fun c => Fin.ext (by
    match c with
    | ⟨0, _⟩ => exact lhs_head2_0 _ _
    | ⟨1, _⟩ => exact (lhs_head2_1 _ _).trans hk)
  have er : dot_S2000x128_S128x1_S2000x1_1_0_0_1_n_n.rhsIdx (ix2 r j) ((contrEquiv1 dot_S2000x128_S128x1_S2000x1_1_0_0_1_n_n 128 rfl rfl).symm k) = ix2 k j := funext fun c => Fin.ext (by
    match c with
    | ⟨0, _⟩ => exact (rhs_head2_0 _ _).trans hk
    | ⟨1, _⟩ => exact rhs_head2_1 _ _)
  rw [el, er]

end Cert.KernelIdeal.Payload

end
-- ==== Proof.KI.Payload.lean ====
/-
  The two values a block of the edge network's kernel computes, read at an index.

  On a block of 2000 state rows the kernel's arithmetic is, row by row, the specification's: the state encoder
  (two dense layers, the rectifier between), the policy head and the value head (each 256 → 128 → 1 with a
  rectifier), then
    * the action of row `r`: 1 when the logistic of the policy logit exceeds one half, else 0;
    * the block's loss: the sum over the 2000 rows of the cross-entropy of the value logit against the label.
  Every format change is the identity on the extended reals, a bias vector stood up as a row and repeated down
  the rows reads its entry at the column, each matrix product into zero is the finite sum over the contracted
  coordinate, `0 − |z|` is `−|z|`, and the zero constants are the number 0. What is left is the specification's
  term, up to unfolding its definitions.
-/
import proofs.«130535_j58952721105293_1_alg».proof.Proof.KI.PayloadMatmul
import proofs.«130535_j58952721105293_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen Cert.KernelIdeal.Region

/-- The network's parameters, read off the twelve weight and bias blocks. -/
abbrev paramsOf (X : Ins Ideal) : Cert.EdgeNet.Params :=
  Cert.EdgeNet.Params.ofArrays X.w1 X.b1 X.w2 X.b2 X.pw1 X.pb1 X.pw2 X.pb2 X.vw1 X.vb1 X.vw2 X.vb2

/-! ## Small readings -/

/-- A bias vector stood up as one row and repeated down the rows reads, at `(r, j)`, its entry `j`. -/
theorem bias_apply {R n : ℕ} (b : (⟨1, ![n]⟩ : Shape).Idx → EReal)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ b h1) h2 (ix2 r j) = b (ix1 j) := by
  rw [broadcastTo_1b_ab_apply, shapeCast_a_1a_apply]

/-- The sum down the one column of a `[2000, 1]` array, from the neutral word: the sum of its 2000 entries. -/
theorem colsum_apply (v : FVec Ideal S2000x1 .f32) :
    multiReduction (F := Ideal) .add [0] S1 v 0x00000000#32 reduces_S2000x1_S1 (.inl rfl) rfl (ix1 (0 : Fin 1))
      = ∑ r : Fin 2000, v (ix2 r (0 : Fin 1)) := by
  refine (Ideal.multiReduction_add_single v 0x00000000#32 reduces_S2000x1_S1 (.inl rfl) rfl (ix1 (0 : Fin 1))).trans ?_
  refine Finset.sum_congr rfl fun k _ => congrArg v ?_
  funext a
  match a with
  | ⟨0, _⟩ => rfl
  | ⟨1, _⟩ => rfl

/-- A one-bit word widened to 32 bits and read as a signed integer is the number 0 or 1 it spells. -/
theorem sitofp_extui_bit (b : BitVec 1) :
    FloatOps.sitofp (F := Ideal) .f32 (b.setWidth 32) = Cert.EdgeNet.bit01 b := by
  show (((b.setWidth 32).toInt : ℝ) : EReal) = ((b.toNat : ℝ) : EReal)
  have h : (b.setWidth 32).toInt = (b.toNat : ℤ) := by
    rcases BitVec.eq_zero_or_eq_one b with h | h <;> subst h <;> decide
  rw [h, Int.cast_natCast]

/-! ## The state encoder -/

/-- Entry `(r, j)` of the encoder's block: the two dense layers on row `r`, the rectifier between. -/
theorem pay4_apply (s : Vec Ideal S2000x384 .f32) (w1 : Vec Ideal S384x256 .f32) (b1 : Vec Ideal S256 .f32)
    (w2 : Vec Ideal S256x256 .f32) (b2 : Vec Ideal S256 .f32) (r : Fin 2000) (j : Fin 256) :
    k0_pay4 (F := Ideal) s w1 b1 w2 b2 (ix2 r j)
      = Cert.EdgeNet.dense (Cert.EdgeNet.relu (Cert.EdgeNet.dense (Cert.EdgeNet.row s r) (fun k j => w1 (ix2 k j)) (fun j => b1 (ix1 j))))
          (fun k j => w2 (ix2 k j)) (fun j => b2 (ix1 j)) j := by
  unfold k0_pay4
  simp only [truncf_apply, addf_apply, maximumf_apply, broadcast_apply, matmul_enc2_apply, matmul_enc1_apply, bias_apply, shapeCast_self]
  simp only [Ideal.ofBits_def, Ideal.ofBits_zero_f32]
  rfl

/-! ## A head: 256 → 128 → 1 on a hidden block -/

/-- A head's logit before its last bias, as the kernel spells it over a block `h` of hidden rows: the first
    product with its bias row, the rectifier, the second product. -/
def headCore (h : FVec Ideal S2000x256 .bf16) (w1 : Vec Ideal S256x128 .f32) (b1 : Vec Ideal S128 .f32)
    (w2 : Vec Ideal S128x1 .f32) : FVec Ideal S2000x1 .f32 :=
  matmul dot_S2000x128_S128x1_S2000x1_1_0_0_1_n_n none
    (truncf .bf16
      (maximumf
        (addf (matmul dot_S2000x256_S256x128_S2000x128_1_0_0_1_n_n none h (truncf .bf16 w1 bitsLt_bf16_f32) (constant S2000x128 .f32 0x00000000#32))
          (broadcastTo S2000x128 (shapeCast S1x128 b1 shapeCasts_S128_S1x128) broadcasts_S1x128_S2000x128))
        (broadcast S2000x128 (Scalar.ofBits .f32 0x00000000#32)))
      bitsLt_bf16_f32)
    (truncf .bf16 w2 bitsLt_bf16_f32) (constant S2000x1 .f32 0x00000000#32)

/-- Row `r` of the head's output, with the last bias added: the two dense layers on row `r` of `h`. -/
theorem headCore_apply (h : FVec Ideal S2000x256 .bf16) (w1 : Vec Ideal S256x128 .f32) (b1 : Vec Ideal S128 .f32)
    (w2 : Vec Ideal S128x1 .f32) (b2 : Vec Ideal S1 .f32) (r : Fin 2000) :
    headCore h w1 b1 w2 (ix2 r (0 : Fin 1)) + b2 (ix1 (0 : Fin 1))
      = Cert.EdgeNet.dense (Cert.EdgeNet.relu (Cert.EdgeNet.dense (fun k => h (ix2 r k)) (fun k j => w1 (ix2 k j)) (fun j => b1 (ix1 j))))
          (fun k j => w2 (ix2 k j)) (fun j => b2 (ix1 j)) 0 := by
  unfold headCore
  simp only [truncf_apply, addf_apply, maximumf_apply, broadcast_apply, matmul_head2_apply, matmul_head1_apply, bias_apply]
  simp only [Scalar.ofBits, Ideal.ofBits_def, Ideal.ofBits_zero_f32]
  rfl

/-- The policy head's column of logits before the last bias is the head over the encoder's block. -/
theorem pay5_eq (s : Vec Ideal S2000x384 .f32) (w1 : Vec Ideal S384x256 .f32) (b1 : Vec Ideal S256 .f32)
    (w2 : Vec Ideal S256x256 .f32) (b2 : Vec Ideal S256 .f32) (pw1 : Vec Ideal S256x128 .f32) (pb1 : Vec Ideal S128 .f32)
    (pw2 : Vec Ideal S128x1 .f32) :
    k0_pay5 (F := Ideal) s w1 b1 w2 b2 pw1 pb1 pw2 = headCore (k0_pay4 (F := Ideal) s w1 b1 w2 b2) pw1 pb1 pw2 := rfl

/-! ## The action -/

section Elementwise
variable {s : Shape} {φ : FTy}
/-- The logistic of a vector at an index is the logistic of the entry, -/
theorem logistic_apply (a : FVec Ideal s φ) (i : s.Idx) : Idealize.ShloMosaic.logistic a i = Ideal.logistic (a i) := rfl
/-- the exponential the exponential, -/
theorem exp_apply (a : FVec Ideal s φ) (i : s.Idx) : Idealize.ShloMosaic.exp a i = Ideal.exp (a i) := rfl
/-- `log (1 + ·)` likewise, -/
theorem log1p_apply (a : FVec Ideal s φ) (i : s.Idx) : Idealize.ShloMosaic.log1p a i = Ideal.log1p (a i) := rfl
/-- and the absolute value is `max a (−a)`. -/
theorem absf_apply (a : FVec Ideal s φ) (i : s.Idx) : Idealize.ShloMosaic.absf a i = max (a i) (-(a i)) := rfl
end Elementwise

/-- Row `r` of the action block over a column `z` of logits before their bias: 1 when the logistic of the
    biased logit exceeds one half, else 0. -/
theorem pay6_apply (z : FVec Ideal S2000x1 .f32) (pb2 : Vec Ideal S1 .f32) (r : Fin 2000) :
    k0_pay6 (F := Ideal) z pb2 (ix2 r (0 : Fin 1))
      = Cert.EdgeNet.bit01 (Ideal.cmp .ogt (Ideal.logistic (z (ix2 r (0 : Fin 1)) + pb2 (ix1 (0 : Fin 1)))) Cert.EdgeNet.half) := by
  unfold k0_pay6
  simp only [sitofp_apply, extui_apply, cmpf_apply, logistic_apply, broadcast_apply, addf_apply, bias_apply, sitofp_extui_bit,
    Ideal.cmpf_def]
  rfl

/-- THE ACTION PAYLOAD: row `r` of the block the kernel stores is the action of state row `r`. -/
theorem act_payload (X : Ins Ideal) (r : Fin 2000) :
    k0_pay6 (F := Ideal) (k0_pay5 X.state X.w1 X.b1 X.w2 X.b2 X.pw1 X.pb1 X.pw2) X.pb2 (ValueIdx.ix2 r 0)
      = Cert.EdgeNet.action (paramsOf X) (Cert.EdgeNet.row X.state r) := by
  rw [pay6_apply, pay5_eq, headCore_apply]
  simp only [pay4_apply]
  rfl

/-! ## The loss -/

/-- The block's loss as the kernel spells it over a column `z` of value logits and the column `y` of labels:
    `max z 0 − z·y + log (1 + e^(0 − |z|))` row by row, summed down the column from the neutral word, as a 1 × 1 array. -/
def lossOf (z : FVec Ideal S2000x1 .f32) (y : Vec Ideal S2000x1 .f32) : FVec Ideal S1x1 .f32 :=
  shapeCast S1x1
    (multiReduction (F := Ideal) .add [0] S1
      (addf
        (subf (maximumf z (broadcast S2000x1 (Scalar.ofBits .f32 0x00000000#32))) (mulf z (shapeCast S2000x1 y shapeCasts_S2000x1_S2000x1)))
        (Idealize.ShloMosaic.log1p (Idealize.ShloMosaic.exp (subf (broadcast S2000x1 (Scalar.ofBits .f32 0x00000000#32)) (Idealize.ShloMosaic.absf z)))))
      0x00000000#32 reduces_S2000x1_S1 (.inl rfl) rfl)
    shapeCasts_S1_S1x1

/-- Its one entry is the sum over the rows of the cross-entropy of the row's logit against its label. -/
theorem lossOf_apply (z : FVec Ideal S2000x1 .f32) (y : Vec Ideal S2000x1 .f32) :
    lossOf z y (ix2 (0 : Fin 1) (0 : Fin 1)) = ∑ r : Fin 2000, Cert.EdgeNet.bce (z (ix2 r (0 : Fin 1))) (y (ix2 r (0 : Fin 1))) := by
  unfold lossOf
  rw [shapeCast_a_1a_apply, colsum_apply]
  refine Finset.sum_congr rfl fun r _ => ?_
  simp only [addf_apply, subf_apply, maximumf_apply, mulf_apply, broadcast_apply, log1p_apply, exp_apply, absf_apply, shapeCast_self,
    Scalar.ofBits, Ideal.ofBits_def, Ideal.ofBits_zero_f32, zero_sub]
  rfl

/-- The block's loss is that sum over the value head's biased column of logits. -/
theorem pay7_eq (h : FVec Ideal S2000x256 .bf16) (vw1 : Vec Ideal S256x128 .f32) (vb1 : Vec Ideal S128 .f32)
    (vw2 : Vec Ideal S128x1 .f32) (vb2 : Vec Ideal S1 .f32) (y : Vec Ideal S2000x1 .f32) :
    k0_pay7 (F := Ideal) h vw1 vb1 vw2 vb2 y
      = lossOf (addf (headCore h vw1 vb1 vw2) (broadcastTo S2000x1 (shapeCast S1x1 vb2 shapeCasts_S1_S1x1) broadcasts_S1x1_S2000x1)) y := rfl

/-- THE LOSS PAYLOAD: the block's 1 × 1 loss is the sum, started from zero, of the loss terms of its 2000 rows. -/
theorem loss_payload (X : Ins Ideal) :
    k0_pay7 (F := Ideal) (k0_pay4 X.state X.w1 X.b1 X.w2 X.b2) X.vw1 X.vb1 X.vw2 X.vb2 X.label (ValueIdx.ix2 0 0)
      = 0 + ∑ r : Fin 2000, Cert.EdgeNet.lossTerm (paramsOf X) (Cert.EdgeNet.row X.state r) (X.label (ValueIdx.ix2 r 0)) := by
  rw [pay7_eq, lossOf_apply, zero_add]
  refine Finset.sum_congr rfl fun r _ => ?_
  rw [addf_apply, bias_apply, headCore_apply]
  simp only [pay4_apply]
  rfl

end Cert.KernelIdeal.Payload

end
-- ==== Proof.KI.Blocks.lean ====
/-
  Which entries of the arrays a grid point's input blocks are.

  The region walks the 500000 edges in 250 blocks of 2000 rows. At grid point `t` the state window hands the
  body rows `2000·t … 2000·t + 1999` of the 500000 × 384 state, the label window the same rows of the label
  column, and each of the twelve weight and bias windows its whole array (their block index is 0 on every
  axis at every point). An element of a block sits in its array, on each axis, at the block index times the
  block's size plus its own coordinate; the block indices are decided once over the 250 points.
-/
import proofs.«130535_j58952721105293_1_alg».proof.Proof.KI.Entry
import Idealize.ShloMosaic.Lib.ValueIdx

noncomputable section

namespace Cert.KernelIdeal.Blocks

open Cert.KernelIdeal Cert.KernelIdeal.Gen Cert.KernelIdeal.Region Idealize.ShloMosaic
open Idealize.ShloMosaic.TcCoe Idealize.SL.Sem

variable {F : FTy → Type} [FloatOps F]

variable (m : (ℓ : Loc nD τ sig) → Buf (Elt F) ℓ)

/-! ## The block indices over the grid -/

/-- The state window's and the label window's block index at point `t` is `(t, 0)`. -/
theorem moving_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of block `t` is one of the 500000 edges: there are 250 points, each of 2000 rows. -/
theorem row_lt (t : Fin cfg0.N) (r : Fin 2000) : 2000 * t.val + r.val < 500000 := by
  have := t.isLt; have hN : cfg0.N = 250 := N_0; have := r.isLt; omega

/-! ## The two moving windows -/

/-- Entry `(r, k)` of the state block at point `t` is entry `(2000·t + r, k)` of the state. -/
theorem state_block (c : Dev nD) (t : Fin cfg0.N) (r : Fin 2000) (k : Fin 384) :
    iblk m c 0 t (ValueIdx.ix2 r k) = V m c main_v25 (ValueIdx.ix2 ⟨2000 * t.val + r.val, row_lt t r⟩ k) := by
  obtain ⟨e0, e1, -, -⟩ := moving_index t
  show V m c main_v25 (((cfg0.win 0).blk t).view.emb (ValueIdx.ix2 r k)) = _
  refine congrArg (V m c main_v25) (funext fun a => Fin.ext ?_)
  match a with
  | ⟨0, _⟩ => show win0_0.index t (0 : Fin 2) * 2000 + 1 * r.val = 2000 * t.val + r.val; omega
  | ⟨1, _⟩ => show win0_0.index t (1 : Fin 2) * 384 + 1 * k.val = k.val; omega

/-- Entry `(r, 0)` of the label block at point `t` is entry `(2000·t + r, 0)` of the label column. -/
theorem label_block (c : Dev nD) (t : Fin cfg0.N) (r : Fin 2000) :
    iblk m c 1 t (ValueIdx.ix2 r 0) = V m c main_v34 (ValueIdx.ix2 ⟨2000 * t.val + r.val, row_lt t r⟩ 0) := by
  obtain ⟨-, -, e0, e1⟩ := moving_index t
  show V m c main_v34 (((cfg0.win 1).blk t).view.emb (ValueIdx.ix2 r 0)) = _
  refine congrArg (V m c main_v34) (funext fun a => Fin.ext ?_)
  match a with
  | ⟨0, _⟩ => show win0_1.index t (0 : Fin 2) * 2000 + 1 * r.val = 2000 * t.val + r.val; omega
  | ⟨1, _⟩ => show win0_1.index t (1 : Fin 2) * 1 + 1 * 0 = 0; omega

/-! ## The twelve windows staged whole -/

/-- Window 2's block index is 0 on every axis at every point. -/
theorem w1_index : ∀ t : Fin cfg0.N, win0_2.index t (0 : Fin 2) = 0 ∧ win0_2.index t (1 : Fin 2) = 0 :=
  (by decide +kernel : ∀ t : Fin grid0.N, _)

/-- The block of the encoder's first weights is the whole array, at every point. -/
theorem w1_block (c : Dev nD) (t : Fin cfg0.N) : iblk m c 2 t = V m c main_arg4 := by
  obtain ⟨e0, e1⟩ := w1_index t
  funext j
  show V m c main_arg4 (((cfg0.win 2).blk t).view.emb j) = V m c main_arg4 j
  refine congrArg (V m c main_arg4) (funext fun a => Fin.ext ?_)
  match a with
  | ⟨0, _⟩ => show win0_2.index t (0 : Fin 2) * 384 + 1 * (j 0).val = (j 0).val; omega
  | ⟨1, _⟩ => show win0_2.index t (1 : Fin 2) * 256 + 1 * (j 1).val = (j 1).val; omega

/-- Window 3's block index is 0 on every axis at every point. -/
theorem b1_index : ∀ t : Fin cfg0.N, win0_3.index t (0 : Fin 1) = 0 :=
  (by decide +kernel : ∀ t : Fin grid0.N, _)

/-- The block of the encoder's first bias is the whole array, at every point. -/
theorem b1_block (c : Dev nD) (t : Fin cfg0.N) : iblk m c 3 t = V m c main_arg5 := by
  have e0 := b1_index t
  funext j
  show V m c main_arg5 (((cfg0.win 3).blk t).view.emb j) = V m c main_arg5 j
  refine congrArg (V m c main_arg5) (funext fun a => Fin.ext ?_)
  match a with
  | ⟨0, _⟩ => show win0_3.index t (0 : Fin 1) * 256 + 1 * (j 0).val = (j 0).val; omega

/-- Window 4's block index is 0 on every axis at every point. -/
theorem w2_index : ∀ t : Fin cfg0.N, win0_4.index t (0 : Fin 2) = 0 ∧ win0_4.index t (1 : Fin 2) = 0 :=
  (by decide +kernel : ∀ t : Fin grid0.N, _)

/-- The block of the encoder's second weights is the whole array, at every point. -/
theorem w2_block (c : Dev nD) (t : Fin cfg0.N) : iblk m c 4 t = V m c main_arg6 := by
  obtain ⟨e0, e1⟩ := w2_index t
  funext j
  show V m c main_arg6 (((cfg0.win 4).blk t).view.emb j) = V m c main_arg6 j
  refine congrArg (V m c main_arg6) (funext fun a => Fin.ext ?_)
  match a with
  | ⟨0, _⟩ => show win0_4.index t (0 : Fin 2) * 256 + 1 * (j 0).val = (j 0).val; omega
  | ⟨1, _⟩ => show win0_4.index t (1 : Fin 2) * 256 + 1 * (j 1).val = (j 1).val; omega

/-- Window 5's block index is 0 on every axis at every point. -/
theorem b2_index : ∀ t : Fin cfg0.N, win0_5.index t (0 : Fin 1) = 0 :=
  (by decide +kernel : ∀ t : Fin grid0.N, _)

/-- The block of the encoder's second bias is the whole array, at every point. -/
theorem b2_block (c : Dev nD) (t : Fin cfg0.N) : iblk m c 5 t = V m c main_arg7 := by
  have e0 := b2_index t
  funext j
  show V m c main_arg7 (((cfg0.win 5).blk t).view.emb j) = V m c main_arg7 j
  refine congrArg (V m c main_arg7) (funext fun a => Fin.ext ?_)
  match a with
  | ⟨0, _⟩ => show win0_5.index t (0 : Fin 1) * 256 + 1 * (j 0).val = (j 0).val; omega

/-- Window 6's block index is 0 on every axis at every point. -/
theorem pw1_index : ∀ t : Fin cfg0.N, win0_6.index t (0 : Fin 2) = 0 ∧ win0_6.index t (1 : Fin 2) = 0 :=
  (by decide +kernel : ∀ t : Fin grid0.N, _)

/-- The block of the policy head's first weights is the whole array, at every point. -/
theorem pw1_block (c : Dev nD) (t : Fin cfg0.N) : iblk m c 6 t = V m c main_arg8 := by
  obtain ⟨e0, e1⟩ := pw1_index t
  funext j
  show V m c main_arg8 (((cfg0.win 6).blk t).view.emb j) = V m c main_arg8 j
  refine congrArg (V m c main_arg8) (funext fun a => Fin.ext ?_)
  match a with
  | ⟨0, _⟩ => show win0_6.index t (0 : Fin 2) * 256 + 1 * (j 0).val = (j 0).val; omega
  | ⟨1, _⟩ => show win0_6.index t (1 : Fin 2) * 128 + 1 * (j 1).val = (j 1).val; omega

/-- Window 7's block index is 0 on every axis at every point. -/
theorem pb1_index : ∀ t : Fin cfg0.N, win0_7.index t (0 : Fin 1) = 0 :=
  (by decide +kernel : ∀ t : Fin grid0.N, _)

/-- The block of the policy head's first bias is the whole array, at every point. -/
theorem pb1_block (c : Dev nD) (t : Fin cfg0.N) : iblk m c 7 t = V m c main_arg9 := by
  have e0 := pb1_index t
  funext j
  show V m c main_arg9 (((cfg0.win 7).blk t).view.emb j) = V m c main_arg9 j
  refine congrArg (V m c main_arg9) (funext fun a => Fin.ext ?_)
  match a with
  | ⟨0, _⟩ => show win0_7.index t (0 : Fin 1) * 128 + 1 * (j 0).val = (j 0).val; omega

/-- Window 8's block index is 0 on every axis at every point. -/
theorem pw2_index : ∀ t : Fin cfg0.N, win0_8.index t (0 : Fin 2) = 0 ∧ win0_8.index t (1 : Fin 2) = 0 :=
  (by decide +kernel : ∀ t : Fin grid0.N, _)

/-- The block of the policy head's second weights is the whole array, at every point. -/
theorem pw2_block (c : Dev nD) (t : Fin cfg0.N) : iblk m c 8 t = V m c main_arg10 := by
  obtain ⟨e0, e1⟩ := pw2_index t
  funext j
  show V m c main_arg10 (((cfg0.win 8).blk t).view.emb j) = V m c main_arg10 j
  refine congrArg (V m c main_arg10) (funext fun a => Fin.ext ?_)
  match a with
  | ⟨0, _⟩ => show win0_8.index t (0 : Fin 2) * 128 + 1 * (j 0).val = (j 0).val; omega
  | ⟨1, _⟩ => show win0_8.index t (1 : Fin 2) * 1 + 1 * (j 1).val = (j 1).val; omega

/-- Window 9's block index is 0 on every axis at every point. -/
theorem pb2_index : ∀ t : Fin cfg0.N, win0_9.index t (0 : Fin 1) = 0 :=
  (by decide +kernel : ∀ t : Fin grid0.N, _)

/-- The block of the policy head's second bias is the whole array, at every point. -/
theorem pb2_block (c : Dev nD) (t : Fin cfg0.N) : iblk m c 9 t = V m c main_arg11 := by
  have e0 := pb2_index t
  funext j
  show V m c main_arg11 (((cfg0.win 9).blk t).view.emb j) = V m c main_arg11 j
  refine congrArg (V m c main_arg11) (funext fun a => Fin.ext ?_)
  match a with
  | ⟨0, _⟩ => show win0_9.index t (0 : Fin 1) * 1 + 1 * (j 0).val = (j 0).val; omega

/-- Window 10's block index is 0 on every axis at every point. -/
theorem vw1_index : ∀ t : Fin cfg0.N, win0_10.index t (0 : Fin 2) = 0 ∧ win0_10.index t (1 : Fin 2) = 0 :=
  (by decide +kernel : ∀ t : Fin grid0.N, _)

/-- The block of the value head's first weights is the whole array, at every point. -/
theorem vw1_block (c : Dev nD) (t : Fin cfg0.N) : iblk m c 10 t = V m c main_arg12 := by
  obtain ⟨e0, e1⟩ := vw1_index t
  funext j
  show V m c main_arg12 (((cfg0.win 10).blk t).view.emb j) = V m c main_arg12 j
  refine congrArg (V m c main_arg12) (funext fun a => Fin.ext ?_)
  match a with
  | ⟨0, _⟩ => show win0_10.index t (0 : Fin 2) * 256 + 1 * (j 0).val = (j 0).val; omega
  | ⟨1, _⟩ => show win0_10.index t (1 : Fin 2) * 128 + 1 * (j 1).val = (j 1).val; omega

/-- Window 11's block index is 0 on every axis at every point. -/
theorem vb1_index : ∀ t : Fin cfg0.N, win0_11.index t (0 : Fin 1) = 0 :=
  (by decide +kernel : ∀ t : Fin grid0.N, _)

/-- The block of the value head's first bias is the whole array, at every point. -/
theorem vb1_block (c : Dev nD) (t : Fin cfg0.N) : iblk m c 11 t = V m c main_arg13 := by
  have e0 := vb1_index t
  funext j
  show V m c main_arg13 (((cfg0.win 11).blk t).view.emb j) = V m c main_arg13 j
  refine congrArg (V m c main_arg13) (funext fun a => Fin.ext ?_)
  match a with
  | ⟨0, _⟩ => show win0_11.index t (0 : Fin 1) * 128 + 1 * (j 0).val = (j 0).val; omega

/-- Window 12's block index is 0 on every axis at every point. -/
theorem vw2_index : ∀ t : Fin cfg0.N, win0_12.index t (0 : Fin 2) = 0 ∧ win0_12.index t (1 : Fin 2) = 0 :=
  (by decide +kernel : ∀ t : Fin grid0.N, _)

/-- The block of the value head's second weights is the whole array, at every point. -/
theorem vw2_block (c : Dev nD) (t : Fin cfg0.N) : iblk m c 12 t = V m c main_arg14 := by
  obtain ⟨e0, e1⟩ := vw2_index t
  funext j
  show V m c main_arg14 (((cfg0.win 12).blk t).view.emb j) = V m c main_arg14 j
  refine congrArg (V m c main_arg14) (funext fun a => Fin.ext ?_)
  match a with
  | ⟨0, _⟩ => show win0_12.index t (0 : Fin 2) * 128 + 1 * (j 0).val = (j 0).val; omega
  | ⟨1, _⟩ => show win0_12.index t (1 : Fin 2) * 1 + 1 * (j 1).val = (j 1).val; omega

/-- Window 13's block index is 0 on every axis at every point. -/
theorem vb2_index : ∀ t : Fin cfg0.N, win0_13.index t (0 : Fin 1) = 0 :=
  (by decide +kernel : ∀ t : Fin grid0.N, _)

/-- The block of the value head's second bias is the whole array, at every point. -/
theorem vb2_block (c : Dev nD) (t : Fin cfg0.N) : iblk m c 13 t = V m c main_arg15 := by
  have e0 := vb2_index t
  funext j
  show V m c main_arg15 (((cfg0.win 13).blk t).view.emb j) = V m c main_arg15 j
  refine congrArg (V m c main_arg15) (funext fun a => Fin.ext ?_)
  match a with
  | ⟨0, _⟩ => show win0_13.index t (0 : Fin 1) * 1 + 1 * (j 0).val = (j 0).val; omega

end Cert.KernelIdeal.Blocks

end
-- ==== Proof.KI.Cover.lean ====
/-
  Where the blocks of the two results sit in their arrays, and that they fill them.

  The actions are a 500000 × 1 array written back in 250 blocks of 2000 rows, one at every grid point: point
  `t` writes rows `2000·t … 2000·t + 1999`, so row `r` of its block is row `2000·t + r` of the array, and
  row `e` of the array lies in the block of point `e / 2000`. The loss is a 1 × 1 array with a single block
  at `(0, 0)`, written back at the last point only (`t = 249`), which therefore covers its one index.
-/
import proofs.«130535_j58952721105293_1_alg».proof.Proof.KI.Entry
import Idealize.ShloMosaic.Lib.ValueIdx
import Idealize.ShloMosaic.Lib.Pipeline.Value

noncomputable section

namespace Cert.KernelIdeal.Cover

open Cert.KernelIdeal Cert.KernelIdeal.Gen Cert.KernelIdeal.Region Idealize.ShloMosaic

/-- A grid point is below 250. -/
theorem point_lt (t : Fin cfg0.N) : t.val < 250 := lt_of_lt_of_eq t.isLt N_0

/-- The block indices of the two results, decided over the 250 points: the block of actions at point `t` is
    block `(t, 0)`; the loss has its one block at `(0, 0)` at every point. -/
theorem block_index : ∀ t : Fin cfg0.N, win0_14.index t (0 : Fin 2) = t.val ∧ win0_14.index t (1 : Fin 2) = 0
    ∧ win0_15.index t (0 : Fin 2) = 0 ∧ win0_15.index t (1 : Fin 2) = 0 :=
  (by decide +kernel : ∀ t : Fin grid0.N, _)

/-- WHERE POINT `t`'S BLOCK OF ACTIONS SITS: its row `r` is row `2000·t + r` of the array (on each axis, the
    block index times the block's size plus the coordinate inside the block). -/
theorem act_emb (t : Fin cfg0.N) (r : Fin 2000) :
    ((cfg0.win 14).blk t).view.emb (ValueIdx.ix2 r 0)
      = ValueIdx.ix2 (⟨2000 * t.val + r.val, by have := point_lt t; have := r.isLt; omega⟩ : Fin 500000) 0 := by
  obtain ⟨e0, e1, -, -⟩ := block_index t
  funext a; apply Fin.ext
  match a with
  | ⟨0, _⟩ => show win0_14.index t (0 : Fin 2) * 2000 + 1 * r.val = 2000 * t.val + r.val; omega
  | ⟨1, _⟩ => show win0_14.index t (1 : Fin 2) * 1 + 1 * 0 = 0; omega

/-- A row of the actions array is in point `t`'s block iff each of its coordinates is in the block's range on
    its axis. -/
theorem mem_act_blk (t : Fin cfg0.N) (i : S500000x1.Idx) :
    i ∈ ((cfg0.win 14).blk t).view.set ↔ ∀ a : Fin 2, win0_14.index t a * S2000x1.size a ≤ (i a).val
      ∧ (i a).val < win0_14.index t a * S2000x1.size a + S2000x1.size a := by
  show i ∈ ((View.whole main_v35_0).slice (win0_14.rect t)).set ↔ _
  rw [View.set_slice_whole, Rect.mem_set_unit]
  exact Iff.rfl

/-- The same for the loss's one block. -/
theorem mem_loss_blk (t : Fin cfg0.N) (i : S1x1.Idx) :
    i ∈ ((cfg0.win 15).blk t).view.set ↔ ∀ a : Fin 2, win0_15.index t a * S1x1.size a ≤ (i a).val
      ∧ (i a).val < win0_15.index t a * S1x1.size a + S1x1.size a := by
  show i ∈ ((View.whole main_v35_1).slice (win0_15.rect t)).set ↔ _
  rw [View.set_slice_whole, Rect.mem_set_unit]
  exact Iff.rfl

/-- THE BLOCKS OF ACTIONS FILL THE ARRAY: row `e` is in the block of point `e / 2000`, and every point writes
    its block back. -/
theorem act_cover : ∀ i : S500000x1.Idx,
    ∃ t : Fin cfg0.N, (cfg0.win 14).flush t = true ∧ i ∈ ((cfg0.win 14).blk t).view.set := by
  intro i
  have hi0 : (i 0).val < 500000 := (i 0).isLt
  have hi1 : (i 1).val < 1 := (i 1).isLt
  obtain ⟨t, ht⟩ : ∃ t : Fin cfg0.N, t.val = (i 0).val / 2000 :=
    ⟨⟨(i 0).val / 2000, lt_of_lt_of_eq (by omega : (i 0).val / 2000 < 250) N_0.symm⟩, rfl⟩
  obtain ⟨e0, e1, -, -⟩ := block_index t
  refine ⟨t, flush0_14 t, ?_⟩
  rw [mem_act_blk]
  intro a
  match a with
  | ⟨0, _⟩ =>
    show win0_14.index t (0 : Fin 2) * 2000 ≤ (i 0).val ∧ (i 0).val < win0_14.index t (0 : Fin 2) * 2000 + 2000
    omega
  | ⟨1, _⟩ =>
    show win0_14.index t (1 : Fin 2) * 1 ≤ (i 1).val ∧ (i 1).val < win0_14.index t (1 : Fin 2) * 1 + 1
    omega

/-- THE LOSS'S ONE INDEX IS COVERED by the block the last point (`t = 249`) writes back. -/
theorem loss_cover : ∀ i : S1x1.Idx,
    ∃ t : Fin cfg0.N, (cfg0.win 15).flush t = true ∧ i ∈ ((cfg0.win 15).blk t).view.set := by
  intro i
  have hi0 : (i 0).val < 1 := (i 0).isLt
  have hi1 : (i 1).val < 1 := (i 1).isLt
  obtain ⟨t, ht⟩ : ∃ t : Fin cfg0.N, t.val = 249 :=
    ⟨⟨249, lt_of_lt_of_eq (by omega : 249 < 250) N_0.symm⟩, rfl⟩
  obtain ⟨-, -, e2, e3⟩ := block_index t
  refine ⟨t, (flush0_15 t).mpr (by omega), ?_⟩
  rw [mem_loss_blk]
  intro a
  match a with
  | ⟨0, _⟩ =>
    show win0_15.index t (0 : Fin 2) * 1 ≤ (i 0).val ∧ (i 0).val < win0_15.index t (0 : Fin 2) * 1 + 1
    omega
  | ⟨1, _⟩ =>
    show win0_15.index t (1 : Fin 2) * 1 ≤ (i 1).val ∧ (i 1).val < win0_15.index t (1 : Fin 2) * 1 + 1
    omega

end Cert.KernelIdeal.Cover

end
-- ==== Proof.SumBlocks.lean ====
/-
  Summing block by block is summing over all edges.

  The kernel's running total after block `n` (each block's sum started from zero, the total started from
  zero) is the sum of the loss terms of the first `2000·(n + 1)` edges: addition of extended reals is
  commutative and associative and zero is neutral, with no side condition. After the last block (`n = 249`)
  that is the sum over all 500000 edges.
-/
import proofs.«130535_j58952721105293_1_alg».proof.Proof.Spec
import Mathlib.Algebra.BigOperators.Group.Finset.Basic

noncomputable section

namespace Cert.EdgeNet

open Idealize.ShloMosaic

/-- The sum of block `t` is the sum of the terms of the edges `2000·t ≤ e < 2000·(t + 1)`: the row `r` of the
    block is the edge `2000·t + r`, and every edge of that range is such a row exactly once. -/
theorem blockLoss_eq (term : Fin 500000 → EReal) (t : ℕ) (ht : t < 250) :
    blockLoss term t ht
      = ∑ e ∈ Finset.univ.filter (fun e : Fin 500000 => 2000 * t ≤ e.val ∧ e.val < 2000 * (t + 1)), term e := by
  unfold blockLoss
  rw [zero_add]
  refine Finset.sum_bij (fun r _ => (⟨2000 * t + r.val, by have := r.isLt; omega⟩ : Fin 500000)) ?_ ?_ ?_ ?_
  · intro r _
    rw [Finset.mem_filter]
    refine ⟨Finset.mem_univ _, ?_⟩
    show 2000 * t ≤ 2000 * t + r.val ∧ 2000 * t + r.val < 2000 * (t + 1)
    have := r.isLt
    omega
  · intro a _ b _ hab
    have hv : 2000 * t + a.val = 2000 * t + b.val := congrArg Fin.val hab
    exact Fin.ext (by omega)
  · intro e he
    rw [Finset.mem_filter] at he
    obtain ⟨_, h1, h2⟩ := he
    refine ⟨⟨e.val - 2000 * t, by omega⟩, Finset.mem_univ _, Fin.ext ?_⟩
    show 2000 * t + (e.val - 2000 * t) = e.val
    omega
  · intro r _
    rfl

/-- The edges below `2000·(n + 2)` are those below `2000·(n + 1)` together with block `n + 1`. -/
theorem sum_below_succ (term : Fin 500000 → EReal) (n : ℕ) :
    (∑ e ∈ Finset.univ.filter (fun e : Fin 500000 => e.val < 2000 * (n + 1)), term e)
        + ∑ e ∈ Finset.univ.filter (fun e : Fin 500000 => 2000 * (n + 1) ≤ e.val ∧ e.val < 2000 * (n + 1 + 1)), term e
      = ∑ e ∈ Finset.univ.filter (fun e : Fin 500000 => e.val < 2000 * (n + 1 + 1)), term e := by
  rw [Finset.sum_filter, Finset.sum_filter, Finset.sum_filter, ← Finset.sum_add_distrib]
  refine Finset.sum_congr rfl fun e _ => ?_
  by_cases h1 : e.val < 2000 * (n + 1)
  · rw [if_pos h1, if_neg (by omega), if_pos (by omega), add_zero]
  · by_cases h2 : e.val < 2000 * (n + 1 + 1)
    · rw [if_neg h1, if_pos ⟨by omega, h2⟩, if_pos h2, zero_add]
    · rw [if_neg h1, if_neg (by omega), if_neg h2, add_zero]

/-- The running total after block `n` is the sum of the terms of the first `2000·(n + 1)` edges. -/
theorem running_eq (term : Fin 500000 → EReal) (n : ℕ) (h : n < 250) :
    running term n h = ∑ e ∈ Finset.univ.filter (fun e : Fin 500000 => e.val < 2000 * (n + 1)), term e := by
  induction n with
  | zero =>
    show 0 + blockLoss term 0 h = _
    rw [zero_add, blockLoss_eq]
    refine Finset.sum_congr ?_ (fun _ _ => rfl)
    ext e
    simp only [Finset.mem_filter, Finset.mem_univ, true_and]
    omega
  | succ n ih =>
    show running term n (Nat.lt_of_succ_lt h) + blockLoss term (n + 1) h = _
    rw [ih, blockLoss_eq, sum_below_succ]

/-- After the last block the running total is the sum over all edges. -/
theorem running_last (term : Fin 500000 → EReal) : running term 249 (by omega) = ∑ e : Fin 500000, term e := by
  rw [running_eq]
  refine Finset.sum_congr ?_ (fun _ _ => rfl)
  ext e; simp only [Finset.mem_filter, Finset.mem_univ, true_and, iff_true]
  have := e.isLt; omega

end Cert.EdgeNet

end
-- ==== Proof.KI.Values.lean ====
/-
  The idealized kernel's two results, as the specification's functions of what the region finds.

  With the extended reals for floats, the state array and the label column as the region finds them, and the
  twelve weight and bias arrays as launched:
  * after the body at point `t` the block of actions is the action of rows `2000·t … 2000·t + 1999`;
  * after the body at point `n < 249` the loss buffer holds the running total of blocks `0 … n` (each block's
    sum started from zero, the total from zero), and after point 249 that total divided by the number of edges;
  * so the actions array ends as the action of every row, and the loss, reshaped by the line after the region,
    as the mean loss: the running total after the last block is the sum over all edges.
-/
import proofs.«130535_j58952721105293_1_alg».proof.Proof.KI.Pieces
import proofs.«130535_j58952721105293_1_alg».proof.Proof.KI.SpecInputs
import proofs.«130535_j58952721105293_1_alg».proof.Proof.KI.Payload
import proofs.«130535_j58952721105293_1_alg».proof.Proof.KI.Blocks
import proofs.«130535_j58952721105293_1_alg».proof.Proof.KI.Cover
import proofs.«130535_j58952721105293_1_alg».proof.Proof.SumBlocks
import Idealize.ShloMosaic.Lib.StableHlo.Run
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option maxHeartbeats 1000000

open Cert.KernelIdeal.Payload Cert.KernelIdeal.Blocks Cert.KernelIdeal.Cover Cert.EdgeNet ValueIdx

theorem rowBound (t : Fin cfg0.N) (r : Fin 2000) : 2000 * t.val + r.val < 500000 := by
  have := t.isLt; have hN : cfg0.N = 250 := N_0; have := r.isLt; omega

/-- The weights a point is handed are the whole arrays. -/
theorem params_block (c : Dev nD) (t : Fin cfg0.N) : paramsOf (blocksAt (F := Ideal) m c t) = params m c := by
  unfold paramsOf params blocksAt
  dsimp only
  rw [w1_block, b1_block, w2_block, b2_block, pw1_block, pb1_block, pw2_block, pb2_block, vw1_block, vb1_block, vw2_block, vb2_block]

/-- Row `r` of the state block of point `t` is row `2000·t + r` of the state array. -/
theorem row_block (c : Dev nD) (t : Fin cfg0.N) (r : Fin 2000) :
    row (blocksAt (F := Ideal) m c t).state r = row (stateArr m c) ⟨2000 * t.val + r.val, rowBound t r⟩ :=
  funext fun k => state_block m c t r k

/-! ## The block of actions after each point -/

theorem act_at (c : Dev nD) (t : Fin cfg0.N) : (outsAt (F := Ideal) m c t.val t.isLt).1 = actOf (F := Ideal) (blocksAt (F := Ideal) m c t) := by
  by_cases hf : isFirst (grid0.coords t)
  · have h0 : t.val = 0 := (isFirst_iff t).mp hf
    have hl : ¬isLast (grid0.coords t) := fun h => by have := (isLast_iff t).mp h; omega
    rw [outsAt_first (F := Ideal) m c t h0 hl]; dsimp only; exact actFirst_eq (F := Ideal) c _ _ _ _ _
  · by_cases hl : isLast (grid0.coords t)
    · rw [outsAt_last (F := Ideal) m c t hf hl]; dsimp only; exact actLast_eq (F := Ideal) c _ _ _ _ _ _
    · rw [outsAt_mid (F := Ideal) m c t hf hl]; dsimp only; exact actMid_eq (F := Ideal) c _ _ _ _ _ _

/-- After point `t`, entry `r` of the block of actions is the action of row `2000·t + r`. -/
theorem act_value (c : Dev nD) (t : Fin cfg0.N) (r : Fin 2000) :
    (outsAt (F := Ideal) m c t.val t.isLt).1 (ix2 r 0) = action (params m c) (row (stateArr m c) ⟨2000 * t.val + r.val, rowBound t r⟩) := by
  rw [act_at]
  exact (act_payload (blocksAt (F := Ideal) m c t) r).trans (by rw [params_block, row_block])

/-! ## The running loss after each point -/

/-- The 1 × 1 shape has one index. -/
theorem idx11 (j : S1x1.Idx) : j = ix2 0 0 := by
  funext a; apply Fin.ext
  match a with
  | ⟨0, _⟩ => have := idx2_lt0 j; show (j 0).val = 0; omega
  | ⟨1, _⟩ => have := idx2_lt1 j; show (j 1).val = 0; omega

/-- The block's sum at point `t` is the sum of the loss terms of rows `2000·t … 2000·t + 1999`, from zero. -/
theorem blockSum_value (c : Dev nD) (t : Fin cfg0.N) :
    blockSumOf (F := Ideal) (blocksAt (F := Ideal) m c t) = fun _ => blockLoss (term m c) t.val (lt_of_lt_of_eq t.isLt N_0) := by
  funext j
  rw [idx11 j]
  have h1 := loss_payload (blocksAt (F := Ideal) m c t)
  rw [params_block] at h1
  refine h1.trans ?_
  unfold blockLoss
  refine congrArg (fun s => (0 : EReal) + s) (Finset.sum_congr rfl fun r _ => ?_)
  unfold term
  rw [row_block m c t r]
  exact congrArg (lossTerm (params m c) _) (label_block m c t r)

/-- Adding a block's sum to the running loss, the reset, and the final division, entry by entry. -/
theorem pay_add (a b : S1x1.Idx → EReal) : k0_pay1 (F := Ideal) a b = fun j => b j + a j := by
  funext j; unfold k0_pay1; simp only [shapeCast_self]; rfl
theorem pay_zero : k0_pay3 (F := Ideal) = fun _ => (0 : EReal) := by
  funext j; unfold k0_pay3; exact Ideal.ofBits_zero_f32
theorem pay_div (a : S1x1.Idx → EReal) : k0_pay2 (F := Ideal) a = fun j => Ideal.div (a j) nEdges := by
  funext j; unfold k0_pay2; simp only [shapeCast_self]; rfl

/-- After point `n < 249` the loss buffer holds the running total of blocks `0 … n`. -/
theorem loss_at (c : Dev nD) : ∀ (n : ℕ) (h : n < cfg0.N) (h249 : n < 249),
    (outsAt (F := Ideal) m c n h).2 = fun _ => running (term m c) n (lt_of_lt_of_eq h N_0) := by
  intro n
  induction n with
  | zero =>
    intro h _
    have hl : ¬isLast (grid0.coords ⟨0, h⟩) := fun hh => by have := (isLast_iff ⟨0, h⟩).mp hh; simp at this
    rw [show outsAt (F := Ideal) m c 0 h = outsAt (F := Ideal) m c (⟨0, h⟩ : Fin cfg0.N).val (⟨0, h⟩ : Fin cfg0.N).isLt from rfl, outsAt_first (F := Ideal) m c ⟨0, h⟩ rfl hl]
    dsimp only
    rw [lossFirst_eq (F := Ideal), pay_add, pay_zero, blockSum_value]
    rfl
  | succ n ih =>
    intro h h249
    have hf : ¬isFirst (grid0.coords ⟨n + 1, h⟩) := fun hh => by have := (isFirst_iff ⟨n + 1, h⟩).mp hh; simp at this
    have hl : ¬isLast (grid0.coords ⟨n + 1, h⟩) := fun hh => by have := (isLast_iff ⟨n + 1, h⟩).mp hh; simp at this; omega
    rw [show outsAt (F := Ideal) m c (n + 1) h = outsAt (F := Ideal) m c (⟨n + 1, h⟩ : Fin cfg0.N).val (⟨n + 1, h⟩ : Fin cfg0.N).isLt from rfl, outsAt_mid (F := Ideal) m c ⟨n + 1, h⟩ hf hl]
    dsimp only
    rw [lossMid_eq (F := Ideal), pay_add, blockSum_value]
    rw [show outsAt (F := Ideal) m c (n + 1 - 1) (Nat.lt_of_le_of_lt (Nat.sub_le _ _) h) = outsAt (F := Ideal) m c n (Nat.lt_of_succ_lt h) from rfl,
      ih (Nat.lt_of_succ_lt h) (by omega)]
    rfl

/-- After the last point the loss buffer holds the mean loss. -/
theorem loss_last (c : Dev nD) (h : 249 < cfg0.N) :
    (outsAt (F := Ideal) m c 249 h).2 = fun _ => meanLoss (params m c) (stateArr m c) (labelArr m c) := by
  have hf : ¬isFirst (grid0.coords ⟨249, h⟩) := fun hh => by have := (isFirst_iff ⟨249, h⟩).mp hh; simp at this
  have hl : isLast (grid0.coords ⟨249, h⟩) := (isLast_iff ⟨249, h⟩).mpr rfl
  rw [show outsAt (F := Ideal) m c 249 h = outsAt (F := Ideal) m c (⟨249, h⟩ : Fin cfg0.N).val (⟨249, h⟩ : Fin cfg0.N).isLt from rfl, outsAt_last (F := Ideal) m c ⟨249, h⟩ hf hl]
  dsimp only
  rw [lossLast_eq (F := Ideal), pay_div, pay_add, blockSum_value]
  rw [show outsAt (F := Ideal) m c (249 - 1) (Nat.lt_of_le_of_lt (Nat.sub_le _ _) h) = outsAt (F := Ideal) m c 248 (by omega) from rfl, loss_at m c 248 (by omega) (by omega)]
  funext _
  show Ideal.div (running (term m c) 248 _ + blockLoss (term m c) 249 _) nEdges = _
  rw [show running (term m c) 248 (by omega) + blockLoss (term m c) 249 (by omega) = running (term m c) 249 (by omega) from rfl, running_last]
  rfl

/-! ## The arrays after the run -/

/-- What point `t` writes back to the actions array is block `t` of the specification's actions. -/
theorem act_flushed (c : Dev nD) (t : Fin cfg0.N) :
    (dats (F := Ideal) m 0 c).flushed 14 t = ((cfg0.win 14).blk t).view.read (Elt Ideal) (actions (params m c) (stateArr m c)) := by
  show (cfg0.win 14).cut (grid0.coords t) ((dats (F := Ideal) m 0 c).after 14 t) = _
  rw [after_act]
  funext y
  obtain ⟨r, q, rfl⟩ : ∃ (r : Fin 2000) (q : Fin 1), y = ix2 r q := ⟨y 0, y 1, eq_ix2 y⟩
  obtain rfl : q = 0 := Subsingleton.elim _ _
  show (outsAt (F := Ideal) m c t.val t.isLt).1 (ix2 r 0) = actions (params m c) (stateArr m c) (((cfg0.win 14).blk t).view.emb (ix2 r 0))
  rw [act_emb, act_value]
  rfl

/-- The actions array ends as the action of every edge. -/
theorem act_final (c : Dev nD) : (dats (F := Ideal) m 0 c).arrAt 14 cfg0.N = actions (params m c) (stateArr m c) :=
  (dats (F := Ideal) m 0 c).arrAt_eq_of_cover 14 _ (fun t _ => act_flushed m c t) act_cover

/-- The 1 × 1 loss array ends holding the mean loss: it is written back once, after the last point. -/
theorem loss_final (c : Dev nD) : (dats (F := Ideal) m 0 c).arrAt 15 cfg0.N = fun _ => meanLoss (params m c) (stateArr m c) (labelArr m c) := by
  refine (dats (F := Ideal) m 0 c).arrAt_eq_of_cover 15 _ (fun t ht => ?_) loss_cover
  have h249 : t.val = 249 := by have := (flush0_15 t).mp ht; have := t.isLt; have hN : cfg0.N = 250 := N_0; omega
  show (cfg0.win 15).cut (grid0.coords t) ((dats (F := Ideal) m 0 c).after 15 t) = _
  rw [after_loss]
  obtain ⟨n, hn⟩ := t
  obtain rfl : n = 249 := h249
  rw [show outsAt (F := Ideal) m c (⟨249, hn⟩ : Fin cfg0.N).val (⟨249, hn⟩ : Fin cfg0.N).isLt = outsAt (F := Ideal) m c 249 hn from rfl, loss_last m c hn]
  rfl

/-- The scalar the line after the region writes: the 1 × 1 loss array reshaped. -/
theorem loss_result (c : Dev nD) :
    Pipeline.afterTail₀ cfgs (dats (F := Ideal) m) 0 (V0 (F := Ideal) m) [hostOps1] c main_v36 = fun _ => meanLoss (params m c) (stateArr m c) (labelArr m c) := by
  unfold Pipeline.afterTail₀
  show StableHlo.after hostOps1 _ (Proc.devRef .tc main_v36) = _
  after_results
  rw [(Pipeline.withArrays_arr spec0 launch0.win.arr_inj c _ _ 15).trans (loss_final m c)]
  rfl

/-! ## The run, read -/

/-- Every weakly fair execution of the idealized kernel's @main ends with the loss at the mean loss, the actions
    at the action of every edge, and the sixteen arguments as launched. -/
theorem value_run : θ_run defs (onTc (τ := τ) (main (F := Ideal))) ⟨m, fun _ => 0, ρ⟩ (fun r => ∀ c : Dev nD,
      r.2.mem ((c.tc : Thread nD τ).loc main_v36) = (fun _ => meanLoss (params m c) (stateArr m c) (labelArr m c))
      ∧ r.2.mem ((c.tc : Thread nD τ).loc main_v35_0) = actions (params m c) (stateArr m c)
      ∧ ArgsKept (F := Ideal) m r c) :=
  (θ_run defs _ _).mono (fun r h c =>
    ⟨((h c).2 main_v36 (Pipeline.mem_restRefs_of main_v36 (by decide) (by decide))).trans (loss_result m c),
      ((h c).1 14).trans (act_final m c),
      args_kept (F := Ideal) m r h c⟩)
    (run_main (F := Ideal) m ρ)

end Cert.KernelIdeal.Region

end
-- ==== Proof.LibNary3.lean ====
/-
  The result of an operation over a literal family of THREE operand references, stated with each operand's
  contents at its own reference.

  An operation over a family of operands, `nary xs y f`, leaves at its result buffer `f` applied to the
  family `fun k => F (xs k)` of the operands' contents. When the family is the literal `![a, b, c]` that
  form hides the three references under a binder: `![a, b, c] k` is no literal reference, so no lemma that
  says what an earlier operation left at `a`, `b` or `c` applies to it. Here the same result is stated
  with the family spelt out, `Fin.cons (F a) (Fin.cons (F b) (Fin.cons (F c) _))`; the two families agree
  at each of the three indices by computation. A third form names the three operands' contents by hypotheses,
  so that each operand is settled by an equation of its own.
-/
import Idealize.ShloMosaic.Lib.StableHlo.Run

noncomputable section

namespace Idealize.ShloMosaic.StableHlo

variable {τ : Topo} {sig : RefSig} {Val : EltTy → Type}
variable {a b c y : Ref sig .tc}

/-- `nary` over a literal family of three references (a join of three operands): the result buffer holds
    the function at the family whose entry `0` is the contents at `a`, entry `1` the contents at `b`,
    entry `2` the contents at `c`. -/
theorem nary3_result
    (f : ((k : Fin 3) → ((![a, b, c] : Fin 3 → Ref sig .tc) k).ty.Contents Val) → y.ty.Contents Val) (hxs hy)
    (F : Valuation τ sig Val) :
    (nary (τ := τ) ![a, b, c] y f hxs hy).result F (Proc.devRef .tc y)
      = f (Fin.cons (F (Proc.devRef .tc a)) (Fin.cons (F (Proc.devRef .tc b)) (Fin.cons (F (Proc.devRef .tc c)) (fun i => i.elim0)))) := by
  rw [nary_result]; congr 1; funext k; fin_cases k <;> rfl

/-- `nary3_result` with the result reference kept out of the simplifier's index, so that it fires as a
    simp lemma beside the library's other primed result lemmas. -/
theorem nary3_result'
    (f : ((k : Fin 3) → ((![a, b, c] : Fin 3 → Ref sig .tc) k).ty.Contents Val) → y.ty.Contents Val) (hxs hy)
    (F : Valuation τ sig Val) :
    (nary (τ := τ) ![a, b, c] y f hxs hy).result F (no_index (Proc.devRef .tc y))
      = f (Fin.cons (F (Proc.devRef .tc a)) (Fin.cons (F (Proc.devRef .tc b)) (Fin.cons (F (Proc.devRef .tc c)) (fun i => i.elim0)))) :=
  nary3_result f hxs hy F

/-- `nary3_result` with the three operands' contents named: if the contents at `a`, `b`, `c` are `A`, `B`, `C`,
    the result buffer holds the function at the family `A`, `B`, `C`. Each operand is then its own equation. -/
theorem nary3_result_of
    (f : ((k : Fin 3) → ((![a, b, c] : Fin 3 → Ref sig .tc) k).ty.Contents Val) → y.ty.Contents Val) (hxs hy)
    (F : Valuation τ sig Val) {A : a.ty.Contents Val} {B : b.ty.Contents Val} {C : c.ty.Contents Val}
    (hA : F (Proc.devRef .tc a) = A) (hB : F (Proc.devRef .tc b) = B) (hC : F (Proc.devRef .tc c) = C) :
    (nary (τ := τ) ![a, b, c] y f hxs hy).result F (Proc.devRef .tc y)
      = f (Fin.cons A (Fin.cons B (Fin.cons C (fun i => i.elim0)))) := by
  subst hA hB hC; exact nary3_result f hxs hy F

end Idealize.ShloMosaic.StableHlo

end
-- ==== Proof.KI.HostChain.lean ====
/-
  What the host lines before the kernel region leave in the two arrays the region's moving windows read,
  named as the reference program's own stage functions of the arguments.

  The idealized kernel's @main begins with forty-three host lines. They cut the two index rows out of the
  edge list, wrap each negative index by the table's length (compare with 0, add 50000, select), stand the
  wrapped indices up as a column, gather rows of the node features by the row index and by the column index
  and rows of the guidance features by the column index, and join the three 500000 × 128 pieces side by side
  into the 500000 × 384 state; then they wrap the row index once more, gather the labels by it, convert them
  to floats and stand them up as a 500000 × 1 column.

  The reference program begins with the same operations on the same arguments, and its stage functions
  `val_main_v25` (the state) and `val_main_v70` (the label column) are their composition. So the kernel's
  state array and label column, as the region finds them, ARE those stage functions of the launch contents
  of the arguments: both sides are one composition of the same operations, and nothing is computed on the
  arrays. The two programs spell their shapes and shape records by constants of their own, with the same
  bodies; they agree by unfolding.
-/
import proofs.«130535_j58952721105293_1_alg».proof.Proof.KI.Entry
import proofs.«130535_j58952721105293_1_alg».proof.Proof.Gen.ReferenceIdeal.Read
import proofs.«130535_j58952721105293_1_alg».proof.Proof.LibNary3
import Idealize.ShloMosaic.Lib.StableHlo.Run

set_option maxRecDepth 16384

noncomputable section

namespace Cert.KernelIdeal.HostChain

open Idealize.ShloMosaic Idealize.ShloMosaic.TcCoe
open Idealize.SL.Sem
open Cert.KernelIdeal Cert.KernelIdeal.Gen Cert.KernelIdeal.Region
open Cert.ReferenceIdeal.Read

variable {F : FTy → Type} [FloatOps F]

variable (m : (ℓ : Loc nD τ sig) → Buf (Elt F) ℓ) (c : Dev nD)

/-- One pass: each host line's result at its own buffer is its function of its operands' contents, and at any
    other buffer what was there (the references told apart by computation). -/
local macro "host_results" : tactic => `(tactic| (
  simp (disch := decide) only [StableHlo.after_cons, StableHlo.after_nil,
    StableHlo.nullary_result', StableHlo.unary_result', StableHlo.binary_result', StableHlo.ternary_result',
    StableHlo.reshape_result',
    StableHlo.nullary_result_ne', StableHlo.unary_result_ne', StableHlo.binary_result_ne', StableHlo.ternary_result_ne',
    StableHlo.reshape_result_ne', StableHlo.nary_result_ne']))

/-- The 500000 × 384 state the region's first window reads is the reference's state of the same arguments.
    The eleven lines after the join do not write it; the join's three operands are, each by its own chain
    of lines, the reference's three gathered pieces (rows of the node features by the wrapped row index, rows of
    the node features by the wrapped column index, rows of the guidance features by the wrapped column index);
    the join of those is the reference's state by definition. -/
theorem state_eq :
    V m c main_v25 = val_main_v25 (F := F)
      (m ((c : Thread nD τ).loc main_arg0)) (m ((c : Thread nD τ).loc main_arg1)) (m ((c : Thread nD τ).loc main_arg2)) := by
  dsimp only [V, V0]
  simp only [hostOps0, List.flatten_cons, List.flatten_nil, List.append_nil, List.cons_append, List.nil_append]
  host_results
  refine (StableHlo.nary3_result_of
    (A := val_main_v10 (F := F) (m ((c : Thread nD τ).loc main_arg0)) (m ((c : Thread nD τ).loc main_arg1)))
    (B := val_main_v17 (F := F) (m ((c : Thread nD τ).loc main_arg0)) (m ((c : Thread nD τ).loc main_arg1)))
    (C := val_main_v24 (F := F) (m ((c : Thread nD τ).loc main_arg1)) (m ((c : Thread nD τ).loc main_arg2)))
    _ _ _ _ ?_ ?_ ?_).trans rfl
  · host_results
    unfold val_main_v10 val_main_v9 val_main_v8 val_main_v7 val_main_v6 val_main_c_0 val_main_v5 val_main_v4
      val_main_c val_main_v1 val_main_v0
    rfl
  · host_results
    unfold val_main_v17 val_main_v16 val_main_v15 val_main_v14 val_main_v13 val_main_c_2 val_main_v12
      val_main_v11 val_main_c_1 val_main_v3 val_main_v2
    rfl
  · host_results
    unfold val_main_v24 val_main_v23 val_main_v22 val_main_v21 val_main_v20 val_main_c_4 val_main_v19
      val_main_v18 val_main_c_3 val_main_v3 val_main_v2
    rfl

/-- The 500000 × 1 label column the region's second window reads is the reference's label column of the same
    arguments: the labels gathered by the wrapped row index, converted to floats, stood up as a column. -/
theorem label_eq :
    V m c main_v34 = val_main_v70 (F := F)
      (m ((c : Thread nD τ).loc main_arg1)) (m ((c : Thread nD τ).loc main_arg3)) := by
  dsimp only [V, V0]
  simp only [hostOps0, List.flatten_cons, List.flatten_nil, List.append_nil, List.cons_append, List.nil_append]
  host_results
  unfold val_main_v70 val_main_v69 val_main_v68 val_main_v67 val_main_v66 val_main_v65 val_main_v64 val_main_c_8
    val_main_v63 val_main_v62 val_main_c_7 val_main_v1 val_main_v0
  rfl

end Cert.KernelIdeal.HostChain

end
-- ==== Proof.RefRead.lean ====
/-
  The reference's side: its generated run, and the run's term read one operation at a time.
  (The index-by-index reading of the reference's results against the specification is added below.)
-/
import proofs.«130535_j58952721105293_1_alg».proof.Proof.Gen.ReferenceIdeal.Run
import proofs.«130535_j58952721105293_1_alg».proof.Proof.Gen.ReferenceIdeal.Read
import proofs.«130535_j58952721105293_1_alg».proof.Proof.Spec
import Idealize.ShloMosaic.PureOps.Ideal
import Idealize.ShloMosaic.PureOps.Ideal.Laws
import Idealize.ShloMosaic.Lib.ValueIdx
import Idealize.ShloMosaic.Lib.IdealHost
import Mathlib.Algebra.BigOperators.Fin

/-!
  ## The reference's two results are the specification's

  Read one operation at a time, the reference computes, for the edge `e`, from the state row `s = row state e`:
  the rectified first layer of the encoder, the encoder's output `hidden s`, the rectified first layers of the two
  heads, the policy logit and the value logit; then the action (the logistic written out as `1 / (1 + e^(−z))`,
  compared with one half, and the comparison's bit read as a number) and the loss term; the loss terms are summed over
  both axes of a 500000 × 1 array from zero and divided by 500000. Each step below reads one layer at an index
  `(e, j)` given by its coordinates, so that the sums over the contracted axis are the specification's sums.
  The state rows and the label column are kept as the two opaque arrays the reference builds for them.
-/

noncomputable section

namespace Cert.RefSide

open Cert.ReferenceIdeal Cert.ReferenceIdeal.Read Idealize.ShloMosaic Idealize.ShloMosaic.ValueIdx

/-! ### The composed index maps, by coordinates -/

section Indices
variable (e : Fin 500000)

theorem lidx26 (j : Fin 256) (k : Fin 384) : lidx_main_v26 (ix2 e j) k = ix2 e k :=
  funext fun a => Fin.ext (by match a with | ⟨0, _⟩ => rfl | ⟨1, _⟩ => rfl)
theorem ridx26 (j : Fin 256) (k : Fin 384) : ridx_main_v26 (ix2 e j) k = ix2 k j :=
  funext fun a => Fin.ext (by match a with | ⟨0, _⟩ => rfl | ⟨1, _⟩ => rfl)
theorem bidx28 (j : Fin 256) : idx_main_v27 (idx_main_v28 (ix2 e j)) = ix1 j :=
  funext fun a => Fin.ext (by match a with | ⟨0, _⟩ => rfl)

theorem lidx31 (j k : Fin 256) : lidx_main_v31 (ix2 e j) k = ix2 e k :=
  funext fun a => Fin.ext (by match a with | ⟨0, _⟩ => rfl | ⟨1, _⟩ => rfl)
theorem ridx31 (j k : Fin 256) : ridx_main_v31 (ix2 e j) k = ix2 k j :=
  funext fun a => Fin.ext (by match a with | ⟨0, _⟩ => rfl | ⟨1, _⟩ => rfl)
theorem bidx33 (j : Fin 256) : idx_main_v32 (idx_main_v33 (ix2 e j)) = ix1 j :=
  funext fun a => Fin.ext (by match a with | ⟨0, _⟩ => rfl)

theorem lidx35 (j : Fin 128) (k : Fin 256) : lidx_main_v35 (ix2 e j) k = ix2 e k :=
  funext fun a => Fin.ext (by match a with | ⟨0, _⟩ => rfl | ⟨1, _⟩ => rfl)
theorem ridx35 (j : Fin 128) (k : Fin 256) : ridx_main_v35 (ix2 e j) k = ix2 k j :=
  funext fun a => Fin.ext (by match a with | ⟨0, _⟩ => rfl | ⟨1, _⟩ => rfl)
theorem bidx37 (j : Fin 128) : idx_main_v36 (idx_main_v37 (ix2 e j)) = ix1 j :=
  funext fun a => Fin.ext (by match a with | ⟨0, _⟩ => rfl)

theorem lidx40 (k : Fin 128) : lidx_main_v40 (ix2 e (0 : Fin 1)) k = ix2 e k :=
  funext fun a => Fin.ext (by match a with | ⟨0, _⟩ => rfl | ⟨1, _⟩ => rfl)
theorem ridx40 (k : Fin 128) : ridx_main_v40 (ix2 e (0 : Fin 1)) k = ix2 k (0 : Fin 1) :=
  funext fun a => Fin.ext (by match a with | ⟨0, _⟩ => rfl | ⟨1, _⟩ => rfl)
theorem bidx42 : idx_main_v41 (idx_main_v42 (ix2 e (0 : Fin 1))) = ix1 (0 : Fin 1) :=
  funext fun a => Fin.ext (by match a with | ⟨0, _⟩ => rfl)

theorem lidx53 (j : Fin 128) (k : Fin 256) : lidx_main_v53 (ix2 e j) k = ix2 e k :=
  funext fun a => Fin.ext (by match a with | ⟨0, _⟩ => rfl | ⟨1, _⟩ => rfl)
theorem ridx53 (j : Fin 128) (k : Fin 256) : ridx_main_v53 (ix2 e j) k = ix2 k j :=
  funext fun a => Fin.ext (by match a with | ⟨0, _⟩ => rfl | ⟨1, _⟩ => rfl)
theorem bidx55 (j : Fin 128) : idx_main_v54 (idx_main_v55 (ix2 e j)) = ix1 j :=
  funext fun a => Fin.ext (by match a with | ⟨0, _⟩ => rfl)

theorem lidx58 (k : Fin 128) : lidx_main_v58 (ix2 e (0 : Fin 1)) k = ix2 e k :=
  funext fun a => Fin.ext (by match a with | ⟨0, _⟩ => rfl | ⟨1, _⟩ => rfl)
theorem ridx58 (k : Fin 128) : ridx_main_v58 (ix2 e (0 : Fin 1)) k = ix2 k (0 : Fin 1) :=
  funext fun a => Fin.ext (by match a with | ⟨0, _⟩ => rfl | ⟨1, _⟩ => rfl)
theorem bidx60 : idx_main_v59 (idx_main_v60 (ix2 e (0 : Fin 1))) = ix1 (0 : Fin 1) :=
  funext fun a => Fin.ext (by match a with | ⟨0, _⟩ => rfl)

end Indices

/-! ### The layers, one at a time -/

variable (x0 : (⟨S50000x128, .f32⟩ : BufTy).Contents (Elt Ideal)) (x1 : (⟨S2x500000, .i32⟩ : BufTy).Contents (Elt Ideal)) (x2 : (⟨S50000x128, .f32⟩ : BufTy).Contents (Elt Ideal)) (x3 : (⟨S50000, .i32⟩ : BufTy).Contents (Elt Ideal))
  (x4 : (⟨S384x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal))

/-- The encoder's first layer, rectified: `relu (W₁ᵀ s + b₁)` at `(e, j)`. -/
theorem enc1_apply (e : Fin 500000) (j : Fin 256) :
    val_main_v30 (F := Ideal) x0 x1 x2 x4 x5 (ix2 e j)
      = EdgeNet.relu (EdgeNet.dense (EdgeNet.row (val_main_v25 (F := Ideal) x0 x1 x2) e) (EdgeNet.Params.ofArrays x4 x5 x6 x7 x8 x9 x10 x11 x12 x13 x14 x15).w1 (EdgeNet.Params.ofArrays x4 x5 x6 x7 x8 x9 x10 x11 x12 x13 x14 x15).b1) j := by
  rw [val_main_v30_apply, val_main_v29_apply, val_main_v26_apply, val_main_v28_apply, val_main_v27_apply,
    val_main_call0_v0_apply, val_main_call0_cst_apply]
  simp only [lidx26, ridx26, bidx28, Ideal.maximumf_def, Ideal.addf_def, Ideal.ofBits_def, Ideal.ofBits_zero_f32]
  rfl

/-- The encoder's output `hidden s` at `(e, j)`. -/
theorem hidden_apply (e : Fin 500000) (j : Fin 256) :
    val_main_v34 (F := Ideal) x0 x1 x2 x4 x5 x6 x7 (ix2 e j)
      = EdgeNet.hidden (EdgeNet.Params.ofArrays x4 x5 x6 x7 x8 x9 x10 x11 x12 x13 x14 x15) (EdgeNet.row (val_main_v25 (F := Ideal) x0 x1 x2) e) j := by
  rw [val_main_v34_apply, val_main_v31_apply, val_main_v33_apply, val_main_v32_apply]
  simp only [lidx31, ridx31, bidx33, enc1_apply x0 x1 x2 x4 x5 x6 x7 x8 x9 x10 x11 x12 x13 x14 x15, Ideal.addf_def]
  rfl

/-- The policy head's first layer, rectified, at `(e, j)`. -/
theorem pol1_apply (e : Fin 500000) (j : Fin 128) :
    val_main_v39 (F := Ideal) x0 x1 x2 x4 x5 x6 x7 x8 x9 (ix2 e j)
      = EdgeNet.relu (EdgeNet.dense (EdgeNet.hidden (EdgeNet.Params.ofArrays x4 x5 x6 x7 x8 x9 x10 x11 x12 x13 x14 x15) (EdgeNet.row (val_main_v25 (F := Ideal) x0 x1 x2) e)) (EdgeNet.Params.ofArrays x4 x5 x6 x7 x8 x9 x10 x11 x12 x13 x14 x15).pw1 (EdgeNet.Params.ofArrays x4 x5 x6 x7 x8 x9 x10 x11 x12 x13 x14 x15).pb1) j := by
  rw [val_main_v39_apply, val_main_v38_apply, val_main_v35_apply, val_main_v37_apply, val_main_v36_apply,
    val_main_call1_v0_apply, val_main_call1_cst_apply]
  simp only [lidx35, ridx35, bidx37, hidden_apply x0 x1 x2 x4 x5 x6 x7 x8 x9 x10 x11 x12 x13 x14 x15, Ideal.maximumf_def, Ideal.addf_def, Ideal.ofBits_def,
    Ideal.ofBits_zero_f32]
  rfl

/-- The policy logit of edge `e`. -/
theorem policy_apply (e : Fin 500000) :
    val_main_v43 (F := Ideal) x0 x1 x2 x4 x5 x6 x7 x8 x9 x10 x11 (ix2 e (0 : Fin 1))
      = EdgeNet.policy (EdgeNet.Params.ofArrays x4 x5 x6 x7 x8 x9 x10 x11 x12 x13 x14 x15) (EdgeNet.row (val_main_v25 (F := Ideal) x0 x1 x2) e) := by
  rw [val_main_v43_apply, val_main_v40_apply, val_main_v42_apply, val_main_v41_apply]
  simp only [lidx40, ridx40, bidx42, pol1_apply x0 x1 x2 x4 x5 x6 x7 x8 x9 x10 x11 x12 x13 x14 x15, Ideal.addf_def]
  rfl

/-- The value head's first layer, rectified, at `(e, j)`. -/
theorem val1_apply (e : Fin 500000) (j : Fin 128) :
    val_main_v57 (F := Ideal) x0 x1 x2 x4 x5 x6 x7 x12 x13 (ix2 e j)
      = EdgeNet.relu (EdgeNet.dense (EdgeNet.hidden (EdgeNet.Params.ofArrays x4 x5 x6 x7 x8 x9 x10 x11 x12 x13 x14 x15) (EdgeNet.row (val_main_v25 (F := Ideal) x0 x1 x2) e)) (EdgeNet.Params.ofArrays x4 x5 x6 x7 x8 x9 x10 x11 x12 x13 x14 x15).vw1 (EdgeNet.Params.ofArrays x4 x5 x6 x7 x8 x9 x10 x11 x12 x13 x14 x15).vb1) j := by
  rw [val_main_v57_apply, val_main_v56_apply, val_main_v53_apply, val_main_v55_apply, val_main_v54_apply,
    val_main_call2_v0_apply, val_main_call2_cst_apply]
  simp only [lidx53, ridx53, bidx55, hidden_apply x0 x1 x2 x4 x5 x6 x7 x8 x9 x10 x11 x12 x13 x14 x15, Ideal.maximumf_def, Ideal.addf_def, Ideal.ofBits_def,
    Ideal.ofBits_zero_f32]
  rfl

/-- The value logit of edge `e`. -/
theorem value_apply (e : Fin 500000) :
    val_main_v61 (F := Ideal) x0 x1 x2 x4 x5 x6 x7 x12 x13 x14 x15 (ix2 e (0 : Fin 1))
      = EdgeNet.value (EdgeNet.Params.ofArrays x4 x5 x6 x7 x8 x9 x10 x11 x12 x13 x14 x15) (EdgeNet.row (val_main_v25 (F := Ideal) x0 x1 x2) e) := by
  rw [val_main_v61_apply, val_main_v58_apply, val_main_v60_apply, val_main_v59_apply]
  simp only [lidx58, ridx58, bidx60, val1_apply x0 x1 x2 x4 x5 x6 x7 x8 x9 x10 x11 x12 x13 x14 x15, Ideal.addf_def]
  rfl

/-- The loss term of edge `e`: the cross-entropy of its value logit against its label. -/
theorem lossTerm_apply (e : Fin 500000) :
    val_main_v79 (F := Ideal) x0 x1 x2 x3 x4 x5 x6 x7 x12 x13 x14 x15 (ix2 e (0 : Fin 1))
      = EdgeNet.lossTerm (EdgeNet.Params.ofArrays x4 x5 x6 x7 x8 x9 x10 x11 x12 x13 x14 x15) (EdgeNet.row (val_main_v25 (F := Ideal) x0 x1 x2) e) (val_main_v70 (F := Ideal) x1 x3 (ix2 e (0 : Fin 1))) := by
  rw [val_main_v79_apply, val_main_v74_apply, val_main_v72_apply, val_main_v73_apply, val_main_v78_apply,
    val_main_v77_apply, val_main_v76_apply, val_main_v75_apply, val_main_v71_apply, val_main_cst_9_apply,
    value_apply x0 x1 x2 x4 x5 x6 x7 x8 x9 x10 x11 x12 x13 x14 x15]
  simp only [Ideal.addf_def, Ideal.subf_def, Ideal.mulf_def, Ideal.maximumf_def, Ideal.hostUnary_log1p_def,
    Ideal.hostUnary_exp_def, Ideal.hostNegf_def, Ideal.negf_def, Ideal.hostAbsf_def, Ideal.ofBits_def,
    Ideal.ofBits_zero_f32]
  rfl

/-! ### The two results -/

/-- THE FIRST RESULT of the reference is the specification's `actions` of the state rows. -/
theorem ref_actions (x0 : (⟨S50000x128, .f32⟩ : BufTy).Contents (Elt Ideal)) (x1 : (⟨S2x500000, .i32⟩ : BufTy).Contents (Elt Ideal)) (x2 : (⟨S50000x128, .f32⟩ : BufTy).Contents (Elt Ideal))
    (x4 : (⟨S384x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) :
    val_main_v52 (F := Ideal) x0 x1 x2 x4 x5 x6 x7 x8 x9 x10 x11
      = EdgeNet.actions (EdgeNet.Params.ofArrays x4 x5 x6 x7 x8 x9 x10 x11 x12 x13 x14 x15) (val_main_v25 (F := Ideal) x0 x1 x2) := by
  funext i
  obtain ⟨e, c, rfl⟩ : ∃ (e : Fin 500000) (c : Fin 1), i = ix2 e c := ⟨i 0, i 1, eq_ix2 i⟩
  obtain rfl : c = 0 := Subsingleton.elim _ _
  rw [val_main_v52_apply, val_main_v51_apply, val_main_v49_apply, val_main_v48_apply, val_main_cst_5_apply,
    val_main_v47_apply, val_main_v46_apply, val_main_cst_apply, val_main_v45_apply, val_main_v44_apply,
    val_main_v50_apply, val_main_cst_6_apply, policy_apply x0 x1 x2 x4 x5 x6 x7 x8 x9 x10 x11 x12 x13 x14 x15]
  simp only [Ideal.hostDivf_def, Ideal.addf_def, Ideal.hostUnary_exp_def, Ideal.hostNegf_def, Ideal.negf_def,
    Ideal.ofBits_def, Ideal.ofBits_one_f32]
  rfl

/-- THE SECOND RESULT of the reference is the specification's `meanLoss` of the state rows and the label column. -/
theorem ref_loss (x0 : (⟨S50000x128, .f32⟩ : BufTy).Contents (Elt Ideal)) (x1 : (⟨S2x500000, .i32⟩ : BufTy).Contents (Elt Ideal)) (x2 : (⟨S50000x128, .f32⟩ : BufTy).Contents (Elt Ideal)) (x3 : (⟨S50000, .i32⟩ : BufTy).Contents (Elt Ideal))
    (x4 : (⟨S384x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) (x12 : (⟨S256x128, .f32⟩ : BufTy).Contents (Elt Ideal)) (x13 : (⟨S128, .f32⟩ : BufTy).Contents (Elt Ideal)) (x14 : (⟨S128x1, .f32⟩ : BufTy).Contents (Elt Ideal)) (x15 : (⟨S1, .f32⟩ : BufTy).Contents (Elt Ideal)) :
    val_main_v81 (F := Ideal) x0 x1 x2 x3 x4 x5 x6 x7 x12 x13 x14 x15
      = fun _ => EdgeNet.meanLoss (EdgeNet.Params.ofArrays x4 x5 x6 x7 x8 x9 x10 x11 x12 x13 x14 x15) (val_main_v25 (F := Ideal) x0 x1 x2) (val_main_v70 (F := Ideal) x1 x3) := by
  funext i
  rw [val_main_v81_apply, val_main_v80_apply, val_main_cst_11_apply, val_main_cst_10_apply, sum_idx2]
  simp only [Fin.sum_univ_one, lossTerm_apply x0 x1 x2 x3 x4 x5 x6 x7 x8 x9 x10 x11 x12 x13 x14 x15, Ideal.hostDivf_def, Ideal.ofBits_def,
    Ideal.ofBits_zero_f32, zero_add]
  rfl

end Cert.RefSide

end
-- ==== Proof.Bridge.lean ====
/-
  The two sides meet: from memories that agree on the sixteen arguments, the reference's two results are the
  specification's two functions of what the kernel region finds.

  The reference's results are the specification applied to the weight and bias arrays, the state rows and the
  label column that the reference builds from ITS arguments. Its arguments are the kernel's (the hypothesis);
  the kernel region finds the twelve weight and bias arrays as launched, and the state array and label column
  it finds are the very arrays the reference builds (the same gathers, joins and conversions of the same
  arguments). So both results are the specification at the kernel's side's inputs.
-/
import proofs.«130535_j58952721105293_1_alg».proof.Defs
import proofs.«130535_j58952721105293_1_alg».proof.Proof.KI.SpecInputs
import proofs.«130535_j58952721105293_1_alg».proof.Proof.KI.HostChain
import proofs.«130535_j58952721105293_1_alg».proof.Proof.RefRead

noncomputable section

namespace Cert.Bridge

open Idealize.ShloMosaic Idealize.SL.Sem

/-- THE LOSS: the reference's scalar result is the mean loss of the state rows and labels the kernel region finds,
    under the parameters it finds. -/
theorem loss_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v81 (F := Ideal) m' c
      = fun _ => Cert.EdgeNet.meanLoss (Cert.KernelIdeal.Region.params m c) (Cert.KernelIdeal.Region.stateArr m c) (Cert.KernelIdeal.Region.labelArr m c) := by
  obtain ⟨h0, h1, h2, h3, h4, h5, h6, h7, h8, h9, h10, h11, h12, h13, h14, h15⟩ := hagree
  have e4 : Cert.KernelIdeal.Region.V m c Cert.KernelIdeal.main_arg4 = m ((c.tc : Thread Cert.KernelIdeal.nD Cert.KernelIdeal.τ).loc Cert.KernelIdeal.main_arg4) := Cert.KernelIdeal.Region.V_arg m c 4
  have e5 : Cert.KernelIdeal.Region.V m c Cert.KernelIdeal.main_arg5 = m ((c.tc : Thread Cert.KernelIdeal.nD Cert.KernelIdeal.τ).loc Cert.KernelIdeal.main_arg5) := Cert.KernelIdeal.Region.V_arg m c 5
  have e6 : Cert.KernelIdeal.Region.V m c Cert.KernelIdeal.main_arg6 = m ((c.tc : Thread Cert.KernelIdeal.nD Cert.KernelIdeal.τ).loc Cert.KernelIdeal.main_arg6) := Cert.KernelIdeal.Region.V_arg m c 6
  have e7 : Cert.KernelIdeal.Region.V m c Cert.KernelIdeal.main_arg7 = m ((c.tc : Thread Cert.KernelIdeal.nD Cert.KernelIdeal.τ).loc Cert.KernelIdeal.main_arg7) := Cert.KernelIdeal.Region.V_arg m c 7
  have e8 : Cert.KernelIdeal.Region.V m c Cert.KernelIdeal.main_arg8 = m ((c.tc : Thread Cert.KernelIdeal.nD Cert.KernelIdeal.τ).loc Cert.KernelIdeal.main_arg8) := Cert.KernelIdeal.Region.V_arg m c 8
  have e9 : Cert.KernelIdeal.Region.V m c Cert.KernelIdeal.main_arg9 = m ((c.tc : Thread Cert.KernelIdeal.nD Cert.KernelIdeal.τ).loc Cert.KernelIdeal.main_arg9) := Cert.KernelIdeal.Region.V_arg m c 9
  have e10 : Cert.KernelIdeal.Region.V m c Cert.KernelIdeal.main_arg10 = m ((c.tc : Thread Cert.KernelIdeal.nD Cert.KernelIdeal.τ).loc Cert.KernelIdeal.main_arg10) := Cert.KernelIdeal.Region.V_arg m c 10
  have e11 : Cert.KernelIdeal.Region.V m c Cert.KernelIdeal.main_arg11 = m ((c.tc : Thread Cert.KernelIdeal.nD Cert.KernelIdeal.τ).loc Cert.KernelIdeal.main_arg11) := Cert.KernelIdeal.Region.V_arg m c 11
  have e12 : Cert.KernelIdeal.Region.V m c Cert.KernelIdeal.main_arg12 = m ((c.tc : Thread Cert.KernelIdeal.nD Cert.KernelIdeal.τ).loc Cert.KernelIdeal.main_arg12) := Cert.KernelIdeal.Region.V_arg m c 12
  have e13 : Cert.KernelIdeal.Region.V m c Cert.KernelIdeal.main_arg13 = m ((c.tc : Thread Cert.KernelIdeal.nD Cert.KernelIdeal.τ).loc Cert.KernelIdeal.main_arg13) := Cert.KernelIdeal.Region.V_arg m c 13
  have e14 : Cert.KernelIdeal.Region.V m c Cert.KernelIdeal.main_arg14 = m ((c.tc : Thread Cert.KernelIdeal.nD Cert.KernelIdeal.τ).loc Cert.KernelIdeal.main_arg14) := Cert.KernelIdeal.Region.V_arg m c 14
  have e15 : Cert.KernelIdeal.Region.V m c Cert.KernelIdeal.main_arg15 = m ((c.tc : Thread Cert.KernelIdeal.nD Cert.KernelIdeal.τ).loc Cert.KernelIdeal.main_arg15) := Cert.KernelIdeal.Region.V_arg m c 15
  rw [Cert.ReferenceIdeal.Read.val_main_v81_eq,
    Cert.RefSide.ref_loss (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)),
    h0, h1, h2, h3, h4, h5, h6, h7, h8, h9, h10, h11, h12, h13, h14, h15]
  unfold Cert.KernelIdeal.Region.params Cert.KernelIdeal.Region.stateArr Cert.KernelIdeal.Region.labelArr
  rw [e4, e5, e6, e7, e8, e9, e10, e11, e12, e13, e14, e15, Cert.KernelIdeal.HostChain.state_eq m c, Cert.KernelIdeal.HostChain.label_eq m c]
  rfl

/-- THE ACTIONS: the reference's array result is the actions of the state rows the kernel region finds, under the
    parameters it finds. -/
theorem act_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v52 (F := Ideal) m' c
      = Cert.EdgeNet.actions (Cert.KernelIdeal.Region.params m c) (Cert.KernelIdeal.Region.stateArr m c) := by
  obtain ⟨h0, h1, h2, h3, h4, h5, h6, h7, h8, h9, h10, h11, h12, h13, h14, h15⟩ := hagree
  have e4 : Cert.KernelIdeal.Region.V m c Cert.KernelIdeal.main_arg4 = m ((c.tc : Thread Cert.KernelIdeal.nD Cert.KernelIdeal.τ).loc Cert.KernelIdeal.main_arg4) := Cert.KernelIdeal.Region.V_arg m c 4
  have e5 : Cert.KernelIdeal.Region.V m c Cert.KernelIdeal.main_arg5 = m ((c.tc : Thread Cert.KernelIdeal.nD Cert.KernelIdeal.τ).loc Cert.KernelIdeal.main_arg5) := Cert.KernelIdeal.Region.V_arg m c 5
  have e6 : Cert.KernelIdeal.Region.V m c Cert.KernelIdeal.main_arg6 = m ((c.tc : Thread Cert.KernelIdeal.nD Cert.KernelIdeal.τ).loc Cert.KernelIdeal.main_arg6) := Cert.KernelIdeal.Region.V_arg m c 6
  have e7 : Cert.KernelIdeal.Region.V m c Cert.KernelIdeal.main_arg7 = m ((c.tc : Thread Cert.KernelIdeal.nD Cert.KernelIdeal.τ).loc Cert.KernelIdeal.main_arg7) := Cert.KernelIdeal.Region.V_arg m c 7
  have e8 : Cert.KernelIdeal.Region.V m c Cert.KernelIdeal.main_arg8 = m ((c.tc : Thread Cert.KernelIdeal.nD Cert.KernelIdeal.τ).loc Cert.KernelIdeal.main_arg8) := Cert.KernelIdeal.Region.V_arg m c 8
  have e9 : Cert.KernelIdeal.Region.V m c Cert.KernelIdeal.main_arg9 = m ((c.tc : Thread Cert.KernelIdeal.nD Cert.KernelIdeal.τ).loc Cert.KernelIdeal.main_arg9) := Cert.KernelIdeal.Region.V_arg m c 9
  have e10 : Cert.KernelIdeal.Region.V m c Cert.KernelIdeal.main_arg10 = m ((c.tc : Thread Cert.KernelIdeal.nD Cert.KernelIdeal.τ).loc Cert.KernelIdeal.main_arg10) := Cert.KernelIdeal.Region.V_arg m c 10
  have e11 : Cert.KernelIdeal.Region.V m c Cert.KernelIdeal.main_arg11 = m ((c.tc : Thread Cert.KernelIdeal.nD Cert.KernelIdeal.τ).loc Cert.KernelIdeal.main_arg11) := Cert.KernelIdeal.Region.V_arg m c 11
  have e12 : Cert.KernelIdeal.Region.V m c Cert.KernelIdeal.main_arg12 = m ((c.tc : Thread Cert.KernelIdeal.nD Cert.KernelIdeal.τ).loc Cert.KernelIdeal.main_arg12) := Cert.KernelIdeal.Region.V_arg m c 12
  have e13 : Cert.KernelIdeal.Region.V m c Cert.KernelIdeal.main_arg13 = m ((c.tc : Thread Cert.KernelIdeal.nD Cert.KernelIdeal.τ).loc Cert.KernelIdeal.main_arg13) := Cert.KernelIdeal.Region.V_arg m c 13
  have e14 : Cert.KernelIdeal.Region.V m c Cert.KernelIdeal.main_arg14 = m ((c.tc : Thread Cert.KernelIdeal.nD Cert.KernelIdeal.τ).loc Cert.KernelIdeal.main_arg14) := Cert.KernelIdeal.Region.V_arg m c 14
  have e15 : Cert.KernelIdeal.Region.V m c Cert.KernelIdeal.main_arg15 = m ((c.tc : Thread Cert.KernelIdeal.nD Cert.KernelIdeal.τ).loc Cert.KernelIdeal.main_arg15) := Cert.KernelIdeal.Region.V_arg m c 15
  rw [Cert.ReferenceIdeal.Read.val_main_v52_eq,
    Cert.RefSide.ref_actions (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)),
    h0, h1, h2, h4, h5, h6, h7, h8, h9, h10, h11, h12, h13, h14, h15]
  unfold Cert.KernelIdeal.Region.params Cert.KernelIdeal.Region.stateArr
  rw [e4, e5, e6, e7, e8, e9, e10, e11, e12, e13, e14, e15, Cert.KernelIdeal.HostChain.state_eq m c]

end Cert.Bridge

end
-- ==== Proof.lean ====
/-
  An edge-wise network on a graph — a state encoder, a policy head giving each edge an action, a value head
  whose cross-entropy against the labels is averaged over the 500000 edges — computed by a TPU kernel that walks
  the edges in 250 blocks of 2000, against the plain array program.

  Over the extended reals both programs compute the two functions of `Spec.lean`: the action of every row of the
  state array, and the mean loss. The kernel casts its matrix operands to a shorter float format (the identity
  here), spells `−|z|` as `0 − |z|`, has the logistic as one operation where the array program spells
  `1 / (1 + e^(−x))` (one function, by definition), and sums the loss block by block into a running total it
  divides at the end; the array program sums over all edges at once. Addition of extended reals is commutative
  and associative with no side condition, so the two sums agree, and no hypothesis on the inputs is used.

  The three frames: the array program's is its generated run with the results dropped; the kernel program's
  (at the word level, and idealized) is proved in `K/Frame.lean` and `KI/Frame.lean` from the library's launch
  theorem: the body at each of the 250 grid points, in its three control cases (first point: the loss is reset;
  last point: the total is divided; the points between), run symbolically on whole staging buffers.
-/
import proofs.«130535_j58952721105293_1_alg».proof.Defs
import proofs.«130535_j58952721105293_1_alg».proof.Proof.Gen.Kernel
import proofs.«130535_j58952721105293_1_alg».proof.Proof.Gen.KernelIdeal
import proofs.«130535_j58952721105293_1_alg».proof.Proof.Gen.ReferenceIdeal
import proofs.«130535_j58952721105293_1_alg».proof.Proof.Gen.Pre_finite_inputs
import proofs.«130535_j58952721105293_1_alg».proof.Proof.K.Frame
import proofs.«130535_j58952721105293_1_alg».proof.Proof.KI.Values
import proofs.«130535_j58952721105293_1_alg».proof.Proof.Bridge
import Idealize.ShloMosaic.Adequacy
import Idealize.ShloMosaic.Init

noncomputable section

namespace Cert.Proof

open Idealize.ShloMosaic Idealize.SL.Sem

/-- The word-level kernel program ends, faults nowhere and leaves its arguments as launched. -/
theorem frame_k : Cert.frame_Kernel := fun m ρ _ => Cert.Kernel.Region.frame m ρ

/-- So does the idealized one. -/
theorem frame_ki : Cert.frame_KernelIdeal := fun m ρ _ => Cert.KernelIdeal.Region.frame m ρ

/-- The array program's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the sixteen arguments both programs end with the mean loss and the action of
    every edge, as the specification computes them from what the kernel region finds. -/
theorem algebraic : Cert.algebraic_KernelIdeal_ReferenceIdeal := by
  intro m ρ m' ρ' _ hagree
  refine ⟨fun c => (fun _ => Cert.EdgeNet.meanLoss (Cert.KernelIdeal.Region.params m c) (Cert.KernelIdeal.Region.stateArr m c) (Cert.KernelIdeal.Region.labelArr m c)),
    fun c => Cert.EdgeNet.actions (Cert.KernelIdeal.Region.params m c) (Cert.KernelIdeal.Region.stateArr m c),
    Cert.KernelIdeal.Region.value_run m ρ, ?_⟩
  exact (θ_run Cert.ReferenceIdeal.defs _ _).mono
    (fun _ h c => ⟨(h c).1.trans (Cert.Bridge.loss_agree m m' c (hagree c)), (h c).2.1.trans (Cert.Bridge.act_agree m m' c (hagree c)), (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
